-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x768 : Shape := ⟨2, ![10000, 768]⟩
abbrev S2x100000 : Shape := ⟨2, ![2, 100000]⟩
abbrev S768x768 : Shape := ⟨2, ![768, 768]⟩
abbrev S768 : Shape := ⟨1, ![768]⟩
abbrev S_ : Shape := ⟨0, ![]⟩

class Facts : Prop where
  bcast_S_S10000x768 : S_.BroadcastsInDim S10000x768 (![] : Fin 0 → Fin S10000x768.rank)
  reducesTo_S10000x768_S_d0_1 : S10000x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S2x100000 : S_.BroadcastsInDim S2x100000 (![] : Fin 0 → Fin S2x100000.rank)
  reducesTo_S2x100000_S_d0_1 : S2x100000.ReducesTo [0, 1] S_

variable [Facts]

def fn_part1 {F : FTy → Type} [FloatOps F] (main_arg1 : IVec S2x100000 32) (main_v13 : IVec S_ 1) (main_v15 : IVec S2x100000 1) (main_c_5 : IVec S_ 1) : IVec S_ 1 :=
  let main_v16 : IVec S_ 1 := (fun x v => Host.reduce IntOp.andi x v reducesTo_S2x100000_S_d0_1 h_S_) main_v15 main_c_5
  let main_v17 : IVec S_ 1 := andi main_v13 main_v16
  let main_c_6 : IVec S_ 32 := constantI S_ 32 10000#32
  let main_v18 : IVec S2x100000 32 := broadcastInDim S2x100000 ![] bcast_S_S2x100000 main_c_6
  let main_v19 : IVec S2x100000 1 := cmpi .slt main_arg1 main_v18
  let main_c_7 : IVec S_ 1 := constantI S_ 1 1#1
  let main_v20 : IVec S_ 1 := (fun x v => Host.reduce IntOp.andi x v reducesTo_S2x100000_S_d0_1 h_S_) main_v19 main_c_7
  let main_v21 : IVec S_ 1 := andi main_v17 main_v20
  main_v21

def fn {F : FTy → Type} [FloatOps F] (main_arg0 : FVec F S10000x768 .f32) (main_arg1 : IVec S2x100000 32) (main_arg2 : FVec F S768x768 .f32) (main_arg3 : FVec F S768 .f32) : IVec S_ 1 :=
  let main_v0 : FVec F S10000x768 .f32 := Host.absf main_arg0
  let main_cst : FVec F S_ .f32 := constant S_ .f32 0x7F800000#32
  let main_v1 : FVec F S10000x768 .f32 := broadcastInDim S10000x768 ![] bcast_S_S10000x768 main_cst
  let main_v2 : IVec S10000x768 1 := cmpf .olt main_v0 main_v1
  let main_c : IVec S_ 1 := constantI S_ 1 1#1
  let main_v3 : IVec S_ 1 := (fun x v => Host.reduce IntOp.andi x v reducesTo_S10000x768_S_d0_1 h_S_) main_v2 main_c
  let main_v4 : FVec F S768x768 .f32 := Host.absf main_arg2
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_c_4 : IVec S_ 32 := constantI S_ 32 0#32
  let main_v14 : IVec S2x100000 32 := broadcastInDim S2x100000 ![] bcast_S_S2x100000 main_c_4
  let main_v15 : IVec S2x100000 1 := cmpi .sge main_arg1 main_v14
  let main_c_5 : IVec S_ 1 := constantI S_ 1 1#1
  fn_part1 (F := F) main_arg1 main_v13 main_v15 main_c_5
-- ==== Kernel.lean ====
abbrev S10000x768 : Shape := ⟨2, ![10000, 768]⟩
abbrev S2x100000 : Shape := ⟨2, ![2, 100000]⟩
abbrev S768x768 : Shape := ⟨2, ![768, 768]⟩
abbrev S768 : Shape := ⟨1, ![768]⟩
abbrev S10000 : Shape := ⟨1, ![10000]⟩
abbrev S1x100000 : Shape := ⟨2, ![1, 100000]⟩
abbrev S100000 : Shape := ⟨1, ![100000]⟩
abbrev S110000 : Shape := ⟨1, ![110000]⟩
abbrev S_ : Shape := ⟨0, ![]⟩
abbrev S110000x1 : Shape := ⟨2, ![110000, 1]⟩
abbrev S10240x10240 : Shape := ⟨2, ![10240, 10240]⟩
abbrev S110000x2 : Shape := ⟨2, ![110000, 2]⟩
abbrev S10240x768 : Shape := ⟨2, ![10240, 768]⟩
abbrev S1024x768 : Shape := ⟨2, ![1024, 768]⟩
abbrev S1x768 : Shape := ⟨2, ![1, 768]⟩
abbrev S512x10240 : Shape := ⟨2, ![512, 10240]⟩
abbrev S512x768 : Shape := ⟨2, ![512, 768]⟩

abbrev nBuf : Space → Nat
  | .hbm => 73
  | .vmem => 11
  | .smem => 0
  | _ => 0

abbrev bufTy : (tb : Table) → Fin (tcTables nBuf tb) → BufTy
  | .hbm, ⟨0, _⟩ => ⟨S10000x768, .f32⟩
  | .hbm, ⟨1, _⟩ => ⟨S2x100000, .i32⟩
  | .hbm, ⟨2, _⟩ => ⟨S768x768, .f32⟩
  | .hbm, ⟨3, _⟩ => ⟨S768, .f32⟩
  | .hbm, ⟨4, _⟩ => ⟨S10000, .i32⟩
  | .hbm, ⟨5, _⟩ => ⟨S1x100000, .i32⟩
  | .hbm, ⟨6, _⟩ => ⟨S100000, .i32⟩
  | .hbm, ⟨7, _⟩ => ⟨S110000, .i32⟩
  | .hbm, ⟨8, _⟩ => ⟨S1x100000, .i32⟩
  | .hbm, ⟨9, _⟩ => ⟨S100000, .i32⟩
  | .hbm, ⟨10, _⟩ => ⟨S110000, .i32⟩
  | .hbm, ⟨11, _⟩ => ⟨S_, .f32⟩
  | .hbm, ⟨12, _⟩ => ⟨S110000, .f32⟩
  | .hbm, ⟨13, _⟩ => ⟨S_, .f32⟩
  | .hbm, ⟨14, _⟩ => ⟨S10000, .f32⟩
  | .hbm, ⟨15, _⟩ => ⟨S110000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .i1⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S110000, .i32⟩
  | .hbm, ⟨27, _⟩ => ⟨S110000, .i1⟩
  | .hbm, ⟨28, _⟩ => ⟨S_, .i32⟩
  | .hbm, ⟨29, _⟩ => ⟨S110000, .i32⟩
  | .hbm, ⟨30, _⟩ => ⟨S110000, .i32⟩
  | .hbm, ⟨31, _⟩ => ⟨S110000, .i32⟩
  | .hbm, ⟨32, _⟩ => ⟨S110000x1, .i32⟩
  | .hbm, ⟨33, _⟩ => ⟨S110000, .f32⟩
  | .hbm, ⟨34, _⟩ => ⟨S_, .i32⟩
  | .hbm, ⟨35, _⟩ => ⟨S110000, .i32⟩
  | .hbm, ⟨36, _⟩ => ⟨S110000, .i1⟩
  | .hbm, ⟨37, _⟩ => ⟨S_, .i32⟩
  | .hbm, ⟨38, _⟩ => ⟨S110000, .i32⟩
  | .hbm, ⟨39, _⟩ => ⟨S110000, .i32⟩
  | .hbm, ⟨40, _⟩ => ⟨S110000, .i32⟩
  | .hbm, ⟨41, _⟩ => ⟨S110000x1, .i32⟩
  | .hbm, ⟨42, _⟩ => ⟨S110000, .f32⟩
  | .hbm, ⟨43, _⟩ => ⟨S110000, .f32⟩
  | .hbm, ⟨44, _⟩ => ⟨S_, .f32⟩
  | .hbm, ⟨45, _⟩ => ⟨S10240x10240, .f32⟩
  | .hbm, ⟨46, _⟩ => ⟨S_, .i32⟩
  | .hbm, ⟨47, _⟩ => ⟨S110000, .i32⟩
  | .hbm, ⟨48, _⟩ => ⟨S110000, .i1⟩
  | .hbm, ⟨49, _⟩ => ⟨S_, .i32⟩
  | .hbm, ⟨50, _⟩ => ⟨S110000, .i32⟩
  | .hbm, ⟨51, _⟩ => ⟨S110000, .i32⟩
  | .hbm, ⟨52, _⟩ => ⟨S110000, .i32⟩
  | .hbm, ⟨53, _⟩ => ⟨S_, .i32⟩
  | .hbm, ⟨54, _⟩ => ⟨S110000, .i32⟩
  | .hbm, ⟨55, _⟩ => ⟨S110000, .i1⟩
  | .hbm, ⟨56, _⟩ => ⟨S_, .i32⟩
  | .hbm, ⟨57, _⟩ => ⟨S110000, .i32⟩
  | .hbm, ⟨58, _⟩ => ⟨S110000, .i32⟩
  | .hbm, ⟨59, _⟩ => ⟨S110000, .i32⟩
  | .hbm, ⟨60, _⟩ => ⟨S110000x1, .i32⟩
  | .hbm, ⟨61, _⟩ => ⟨S110000x1, .i32⟩
  | .hbm, ⟨62, _⟩ => ⟨S110000x2, .i32⟩
  | .hbm, ⟨63, _⟩ => ⟨S10240x10240, .f32⟩
  | .hbm, ⟨64, _⟩ => ⟨S10240x10240, .bf16⟩
  | .hbm, ⟨65, _⟩ => ⟨S_, .i32⟩
  | .hbm, ⟨66, _⟩ => ⟨S_, .f32⟩
  | .hbm, ⟨67, _⟩ => ⟨S10240x768, .f32⟩
  | .hbm, ⟨68, _⟩ => ⟨S768x768, .bf16⟩
  | .hbm, ⟨69, _⟩ => ⟨S10240x768, .bf16⟩
  | .hbm, ⟨70, _⟩ => ⟨S1x768, .f32⟩
  | .hbm, ⟨71, _⟩ => ⟨S10240x768, .f32⟩
  | .hbm, ⟨72, _⟩ => ⟨S10000x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S1024x768, .bf16⟩
  | .local _ .vmem, ⟨4, _⟩ => ⟨S1024x768, .bf16⟩
  | .local _ .vmem, ⟨5, _⟩ => ⟨S512x10240, .bf16⟩
  | .local _ .vmem, ⟨6, _⟩ => ⟨S512x10240, .bf16⟩
  | .local _ .vmem, ⟨7, _⟩ => ⟨S10240x768, .bf16⟩
  | .local _ .vmem, ⟨8, _⟩ => ⟨S1x768, .f32⟩
  | .local _ .vmem, ⟨9, _⟩ => ⟨S512x768, .f32⟩
  | .local _ .vmem, ⟨10, _⟩ => ⟨S512x768, .f32⟩
  | _, _ => ⟨S10000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_call1_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x100000_S1x100000_0_0 : S2x100000.Slices ![0, 0] S1x100000
  shapeCasts_S1x100000_S100000 : S1x100000.ShapeCasts S100000
  concatenates_S100000_S10000_S110000_d0 : Shape.Concatenates [S100000, S10000] S110000 0
  slices_S2x100000_S1x100000_1_0 : S2x100000.Slices ![1, 0] S1x100000
  bcast_S_S110000 : S_.BroadcastsInDim S110000 (![] : Fin 0 → Fin S110000.rank)
  bcast_S_S10000 : S_.BroadcastsInDim S10000 (![] : Fin 0 → Fin S10000.rank)
  bcast_S110000_S110000x1_0 : S110000.BroadcastsInDim S110000x1 (![0] : Fin 1 → Fin S110000x1.rank)
  bcast_S_S10240x10240 : S_.BroadcastsInDim S10240x10240 (![] : Fin 0 → Fin S10240x10240.rank)
  concatenates_S110000x1_S110000x1_S110000x2_d1 : Shape.Concatenates [S110000x1, S110000x1] S110000x2 1
  bitsLt_bf16_f32 : FTy.bits .bf16 < FTy.bits .f32
  pads_S10000x768_S10240x768_02400_000 : S10000x768.Pads (![0, 0] : Fin 2 → Nat) ![240, 0] ![0, 0] S10240x768
  h_S_ : 0 < S_.numel
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  packedbf16_S1024x768_S1024x768_0_0 : (Rect.unit (s := S1024x768) ![0, 0] S1024x768.size inb_S1024x768_S1024x768_0_0).PackedRows (EltTy.packing .bf16)
  shapeCasts_S768_S1x768 : S768.ShapeCasts S1x768
  inb_S512x10240_S512x10240_0_0 : ∀ a, (![0, 0] : Fin 2 → Nat) a + S512x10240.size a ≤ S512x10240.size a
  h_S512x10240 : 0 < S512x10240.numel
  shapeCasts_S512x10240_S512x10240 : S512x10240.ShapeCasts S512x10240
  inb_S10240x768_S10240x768_0_0 : ∀ a, (![0, 0] : Fin 2 → Nat) a + S10240x768.size a ≤ S10240x768.size a
  h_S10240x768 : 0 < S10240x768.numel
  shapeCasts_S10240x768_S10240x768 : S10240x768.ShapeCasts S10240x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  slices_S10240x768_S10000x768_0_0 : S10240x768.Slices ![0, 0] S10000x768
  scatter_S10000_S110000x1_S110000_n_0_0_1_wf : ScatterDims.WF S10000 S110000x1 S110000 [] [0] [0] 1
  gather_S10000_S110000x1_S110000_n_0_n_n_0_1_1_wf : GatherDims.WF S10000 S110000x1 S110000 [] [0] [] [0] [] 1 ![1]
  scatter_S10240x10240_S110000x2_S110000_n_01_01_1_wf : ScatterDims.WF S10240x10240 S110000x2 S110000 [] [0, 1] [0, 1] 1
  dot_S1024x768_S768x768_S1024x768_1_0_0_1_n_n_wf : DotDims.WF S1024x768 S768x768 S1024x768 [1] [0] [0] [1] [] []
  dot_S512x10240_S10240x768_S512x768_1_0_0_1_n_n_wf : DotDims.WF S512x10240 S10240x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S10240x768.size a
  hwx0_0 : ∀ i : grid0.Coords, EltTy.bits .f32 = 32 ∨ (Rect.block (s := S10240x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S10240x768.size a
  hwx0_2 : ∀ i : grid0.Coords, EltTy.bits .bf16 = 32 ∨ (Rect.block (s := S10240x768) S1024x768.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x10240.size a ≤ S10240x10240.size a
  hwx1_0 : ∀ i : grid1.Coords, EltTy.bits .bf16 = 32 ∨ (Rect.block (s := S10240x10240) S512x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x768.size a ≤ S10240x768.size a
  hwx1_1 : ∀ i : grid1.Coords, EltTy.bits .bf16 = 32 ∨ (Rect.block (s := S10240x768) S10240x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x768.size a ≤ S10240x768.size a
  hwx1_3 : ∀ i : grid1.Coords, EltTy.bits .f32 = 32 ∨ (Rect.block (s := S10240x768) S512x768.size (cc1_transform_3 i) (hinb1_3 i)).WholeWords (EltTy.packing .f32)

variable [Facts₀]

def scatter_S10000_S110000x1_S110000_n_0_0_1 : ScatterDims S10000 S110000x1 S110000 where
  updateWindowDims := []
  insertedWindowDims := [0]
  scatterDimsToOperandDims := [0]
  indexVectorDim := 1
  wf := scatter_S10000_S110000x1_S110000_n_0_0_1_wf
def gather_S10000_S110000x1_S110000_n_0_n_n_0_1_1 : GatherDims S10000 S110000x1 S110000 where
  offsetDims := []
  collapsedSliceDims := [0]
  operandBatchingDims := []
  startIndicesBatchingDims := []
  startIndexMap := [0]
  indexVectorDim := 1
  sliceSizes := ![1]
  wf := gather_S10000_S110000x1_S110000_n_0_n_n_0_1_1_wf
def scatter_S10240x10240_S110000x2_S110000_n_01_01_1 : ScatterDims S10240x10240 S110000x2 S110000 where
  updateWindowDims := []
  insertedWindowDims := [0, 1]
  scatterDimsToOperandDims := [0, 1]
  indexVectorDim := 1
  wf := scatter_S10240x10240_S110000x2_S110000_n_01_01_1_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S512x10240_S10240x768_S512x768_1_0_0_1_n_n : DotDims S512x10240 S10240x768 S512x768 where
  lhsContracting := [1]
  rhsContracting := [0]
  lhsNonContracting := [0]
  rhsNonContracting := [1]
  lhsBatch := []
  rhsBatch := []
  wf := dot_S512x10240_S10240x768_S512x768_1_0_0_1_n_n_wf

abbrev win0_0 : Pipeline.Window sig grid0 :=
  Pipeline.Window.ofSpec (Memref.whole main_v46) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S512x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S10240x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S512x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x768 : Shape := ⟨2, ![10000, 768]⟩
abbrev S2x100000 : Shape := ⟨2, ![2, 100000]⟩
abbrev S768x768 : Shape := ⟨2, ![768, 768]⟩
abbrev S768 : Shape := ⟨1, ![768]⟩
abbrev S10000 : Shape := ⟨1, ![10000]⟩
abbrev S1x100000 : Shape := ⟨2, ![1, 100000]⟩
abbrev S100000 : Shape := ⟨1, ![100000]⟩
abbrev S110000 : Shape := ⟨1, ![110000]⟩
abbrev S_ : Shape := ⟨0, ![]⟩
abbrev S110000x1 : Shape := ⟨2, ![110000, 1]⟩
abbrev S110000x768 : Shape := ⟨2, ![110000, 768]⟩
abbrev S1x768 : Shape := ⟨2, ![1, 768]⟩

abbrev nBuf : Space → Nat
  | .hbm => 64
  | .vmem => 0
  | .smem => 0
  | _ => 0

abbrev bufTy : (tb : Table) → Fin (tcTables nBuf tb) → BufTy
  | .hbm, ⟨0, _⟩ => ⟨S10000x768, .f32⟩
  | .hbm, ⟨1, _⟩ => ⟨S2x100000, .i32⟩
  | .hbm, ⟨2, _⟩ => ⟨S768x768, .f32⟩
  | .hbm, ⟨3, _⟩ => ⟨S768, .f32⟩
  | .hbm, ⟨4, _⟩ => ⟨S10000, .i32⟩
  | .hbm, ⟨5, _⟩ => ⟨S1x100000, .i32⟩
  | .hbm, ⟨6, _⟩ => ⟨S100000, .i32⟩
  | .hbm, ⟨7, _⟩ => ⟨S110000, .i32⟩
  | .hbm, ⟨8, _⟩ => ⟨S1x100000, .i32⟩
  | .hbm, ⟨9, _⟩ => ⟨S100000, .i32⟩
  | .hbm, ⟨10, _⟩ => ⟨S110000, .i32⟩
  | .hbm, ⟨11, _⟩ => ⟨S_, .f32⟩
  | .hbm, ⟨12, _⟩ => ⟨S110000, .f32⟩
  | .hbm, ⟨13, _⟩ => ⟨S_, .f32⟩
  | .hbm, ⟨14, _⟩ => ⟨S10000, .f32⟩
  | .hbm, ⟨15, _⟩ => ⟨S110000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .i1⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S110000, .i32⟩
  | .hbm, ⟨27, _⟩ => ⟨S110000, .i1⟩
  | .hbm, ⟨28, _⟩ => ⟨S_, .i32⟩
  | .hbm, ⟨29, _⟩ => ⟨S110000, .i32⟩
  | .hbm, ⟨30, _⟩ => ⟨S110000, .i32⟩
  | .hbm, ⟨31, _⟩ => ⟨S110000, .i32⟩
  | .hbm, ⟨32, _⟩ => ⟨S110000x1, .i32⟩
  | .hbm, ⟨33, _⟩ => ⟨S110000, .f32⟩
  | .hbm, ⟨34, _⟩ => ⟨S_, .i32⟩
  | .hbm, ⟨35, _⟩ => ⟨S110000, .i32⟩
  | .hbm, ⟨36, _⟩ => ⟨S110000, .i1⟩
  | .hbm, ⟨37, _⟩ => ⟨S_, .i32⟩
  | .hbm, ⟨38, _⟩ => ⟨S110000, .i32⟩
  | .hbm, ⟨39, _⟩ => ⟨S110000, .i32⟩
  | .hbm, ⟨40, _⟩ => ⟨S110000, .i32⟩
  | .hbm, ⟨41, _⟩ => ⟨S110000x1, .i32⟩
  | .hbm, ⟨42, _⟩ => ⟨S110000, .f32⟩
  | .hbm, ⟨43, _⟩ => ⟨S110000, .f32⟩
  | .hbm, ⟨44, _⟩ => ⟨S10000x768, .f32⟩
  | .hbm, ⟨45, _⟩ => ⟨S_, .i32⟩
  | .hbm, ⟨46, _⟩ => ⟨S110000, .i32⟩
  | .hbm, ⟨47, _⟩ => ⟨S110000, .i1⟩
  | .hbm, ⟨48, _⟩ => ⟨S_, .i32⟩
  | .hbm, ⟨49, _⟩ => ⟨S110000, .i32⟩
  | .hbm, ⟨50, _⟩ => ⟨S110000, .i32⟩
  | .hbm, ⟨51, _⟩ => ⟨S110000, .i32⟩
  | .hbm, ⟨52, _⟩ => ⟨S110000x1, .i32⟩
  | .hbm, ⟨53, _⟩ => ⟨S110000x768, .f32⟩
  | .hbm, ⟨54, _⟩ => ⟨S110000x1, .f32⟩
  | .hbm, ⟨55, _⟩ => ⟨S110000x768, .f32⟩
  | .hbm, ⟨56, _⟩ => ⟨S110000x768, .f32⟩
  | .hbm, ⟨57, _⟩ => ⟨S_, .f32⟩
  | .hbm, ⟨58, _⟩ => ⟨S10000x768, .f32⟩
  | .hbm, ⟨59, _⟩ => ⟨S110000x1, .i32⟩
  | .hbm, ⟨60, _⟩ => ⟨S10000x768, .f32⟩
  | .hbm, ⟨61, _⟩ => ⟨S1x768, .f32⟩
  | .hbm, ⟨62, _⟩ => ⟨S10000x768, .f32⟩
  | .hbm, ⟨63, _⟩ => ⟨S10000x768, .f32⟩
  | _, _ => ⟨S10000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  concatenates_S100000_S10000_S110000_d0 : Shape.Concatenates [S100000, S10000] S110000 0
  slices_S2x100000_S1x100000_1_0 : S2x100000.Slices ![1, 0] S1x100000
  bcast_S_S110000 : S_.BroadcastsInDim S110000 (![] : Fin 0 → Fin S110000.rank)
  bcast_S_S10000 : S_.BroadcastsInDim S10000 (![] : Fin 0 → Fin S10000.rank)
  bcast_S110000_S110000x1_0 : S110000.BroadcastsInDim S110000x1 (![0] : Fin 1 → Fin S110000x1.rank)
  bcast_S110000x1_S110000x768_0_1 : S110000x1.BroadcastsInDim S110000x768 (![0, 1] : Fin 2 → Fin S110000x768.rank)
  bcast_S_S10000x768 : S_.BroadcastsInDim S10000x768 (![] : Fin 0 → Fin S10000x768.rank)
  bcast_S768_S1x768_1 : S768.BroadcastsInDim S1x768 (![1] : Fin 1 → Fin S1x768.rank)
  bcast_S1x768_S10000x768_0_1 : S1x768.BroadcastsInDim S10000x768 (![0, 1] : Fin 2 → Fin S10000x768.rank)
  scatter_S10000_S110000x1_S110000_n_0_0_1_wf : ScatterDims.WF S10000 S110000x1 S110000 [] [0] [0] 1
  gather_S10000_S110000x1_S110000_n_0_n_n_0_1_1_wf : GatherDims.WF S10000 S110000x1 S110000 [] [0] [] [0] [] 1 ![1]
  dot_S10000x768_S768x768_S10000x768_1_0_0_1_n_n_wf : DotDims.WF S10000x768 S768x768 S10000x768 [1] [0] [0] [1] [] []
  gather_S10000x768_S110000x1_S110000x768_1_0_n_n_0_1_1768_wf : GatherDims.WF S10000x768 S110000x1 S110000x768 [1] [0] [] [0] [] 1 ![1, 768]
  scatter_S10000x768_S110000x1_S110000x768_1_0_0_1_wf : ScatterDims.WF S10000x768 S110000x1 S110000x768 [1] [0] [0] 1

variable [Facts₀]

def scatter_S10000_S110000x1_S110000_n_0_0_1 : ScatterDims S10000 S110000x1 S110000 where
  updateWindowDims := []
  insertedWindowDims := [0]
  scatterDimsToOperandDims := [0]
  indexVectorDim := 1
  wf := scatter_S10000_S110000x1_S110000_n_0_0_1_wf
def gather_S10000_S110000x1_S110000_n_0_n_n_0_1_1 : GatherDims S10000 S110000x1 S110000 where
  offsetDims := []
  collapsedSliceDims := [0]
  operandBatchingDims := []
  startIndicesBatchingDims := []
  startIndexMap := [0]
  indexVectorDim := 1
  sliceSizes := ![1]
  wf := gather_S10000_S110000x1_S110000_n_0_n_n_0_1_1_wf
def dot_S10000x768_S768x768_S10000x768_1_0_0_1_n_n : DotDims S10000x768 S768x768 S10000x768 where
  lhsContracting := [1]
  rhsContracting := [0]
  lhsNonContracting := [0]
  rhsNonContracting := [1]
  lhsBatch := []
  rhsBatch := []
  wf := dot_S10000x768_S768x768_S10000x768_1_0_0_1_n_n_wf
def gather_S10000x768_S110000x1_S110000x768_1_0_n_n_0_1_1768 : GatherDims S10000x768 S110000x1 S110000x768 where
  offsetDims := [1]
  collapsedSliceDims := [0]
  operandBatchingDims := []
  startIndicesBatchingDims := []
  startIndexMap := [0]
  indexVectorDim := 1
  sliceSizes := ![1, 768]
  wf := gather_S10000x768_S110000x1_S110000x768_1_0_n_n_0_1_1768_wf
def scatter_S10000x768_S110000x1_S110000x768_1_0_0_1 : ScatterDims S10000x768 S110000x1 S110000x768 where
  updateWindowDims := [1]
  insertedWindowDims := [0]
  scatterDimsToOperandDims := [0]
  indexVectorDim := 1
  wf := scatter_S10000x768_S110000x1_S110000x768_1_0_0_1_wf

class Facts : Prop extends Facts₀ where

variable [Facts]
-- ==== Proof.KReg0.lean ====
/-
  The first matrix product, read off its pipeline at the exact (extended-real) instance.
  The pipeline runs over ten grid points. At point t the body is handed rows 1024·t … 1024·t + 1023 of the padded
  features (a block: 1024 consecutive rows, all 768 columns) and the whole 768 × 768 weight matrix, multiplies them into
  a zero accumulator, and leaves the 1024 × 768 product, which is written back as rows 1024·t … 1024·t + 1023 of the
  output. Entry (p, q) of a block product is the sum over the 768 shared coordinates of row p of the feature block
  times column q of the weights, so every written block is the restriction of ONE whole-array function, row k by
  column j; row k lies in block k / 1024, the ten blocks tile the 10240 rows, and the output array is that function.
-/
import proofs.«403808_j84464826843561_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegVal

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The padded features as the first product finds them. -/
abbrev xpArr (c : Dev nD) : Vec Ideal S10240x768 .f32 := V c main_v46
/-- The weight matrix as the first product finds it. -/
abbrev wArr (c : Dev nD) : Vec Ideal S768x768 .bf16 := V c main_v47

/-- The zero offsets of a whole-buffer access, however they are spelt. -/
theorem reg0_hz : (![0, 0] : Fin 2 → Nat) = fun _ => 0 := funext fun a => by fin_cases a <;> rfl

/-- The left operand of the product is read at the result's row … -/
theorem reg0_lhs_0 (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
/-- … and at the summation index as its column; -/
theorem reg0_lhs_1 (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q
/-- the right operand at the summation index as its row … -/
theorem reg0_rhs_0 (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q
/-- … and at the result's column. -/
theorem reg0_rhs_1 (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- One block's product into the zero accumulator, at row `p` and column `q` of the block: the sum over the 768 shared
    coordinates of the products of the entries. -/
theorem reg0_matmul (a : FVec Ideal S1024x768 .bf16) (b : FVec Ideal S768x768 .bf16) (p : Fin 1024) (q : Fin 768) :
    FloatOps.matmul dot_S1024x768_S768x768_S1024x768_1_0_0_1_n_n none a b (constant S1024x768 .f32 0x00000000#32) (ix2 p q)
      = ∑ d : Fin 768, a (ix2 p d) * b (ix2 d q) := by
  rw [Ideal.matmul_constant_zero_apply, ← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 p q) ((contrEquiv1 dot_S1024x768_S768x768_S1024x768_1_0_0_1_n_n 768 rfl rfl).symm k) = ix2 p k := funext fun a => Fin.ext (by
    match a with
    | ⟨0, _⟩ => exact reg0_lhs_0 _ _
    | ⟨1, _⟩ => exact (reg0_lhs_1 _ _).trans hk)
  have er : dot_S1024x768_S768x768_S1024x768_1_0_0_1_n_n.rhsIdx (ix2 p q) ((contrEquiv1 dot_S1024x768_S768x768_S1024x768_1_0_0_1_n_n 768 rfl rfl).symm k) = ix2 k q := funext fun a => Fin.ext (by
    match a with
    | ⟨0, _⟩ => exact (reg0_rhs_0 _ _).trans hk
    | ⟨1, _⟩ => exact reg0_rhs_1 _ _)
  rw [el, er]

/-- What the body leaves in the output buffer, from the two input blocks, at row `p` and column `q`: the changes of
    float format and the casts to the same shape are identities here, so it is the block product. -/
theorem reg0_out (x0 : Vec Ideal S1024x768 .f32) (x1 : Vec Ideal S768x768 .bf16) (p : Fin 1024) (q : Fin 768) :
    out0_2 x0 x1 (ix2 p q) = ∑ d : Fin 768, x0 (ix2 p d) * x1 (ix2 d q) := by
  unfold out0_2
  rw [View.canon_unit_zero reg0_hz]
  simp only [View.ld_unit_zero (S := S1024x768) reg0_hz, View.ld_unit_zero (S := S768x768) reg0_hz]
  unfold k0_pay1
  refine Eq.trans ?_ (reg0_matmul x0 x1 p q)
  simp only [shapeCast_self]
  rfl

/-- The whole output array the ten blocks are restrictions of: row by column. -/
def reg0_G (X : Vec Ideal S10240x768 .f32) (W : Vec Ideal S768x768 .bf16) : Vec Ideal S10240x768 .bf16 :=
  fun i => ∑ d : Fin 768, X (ix2 (⟨(i 0).val, (i 0).isLt⟩ : Fin 10240) d) * W (ix2 d (⟨(i 1).val, (i 1).isLt⟩ : Fin 768))

/-- The block index maps over the ten grid points: the feature block and the output block of point `t` are block `t`
    of the rows, all 768 columns; the weight block is the whole matrix at every point. -/
theorem reg0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the ten row blocks is some grid point's output block. -/
theorem reg0_idx_onto : ∀ q0 : Fin 10, ∃ t : Fin cfg0.N, win0_2.index t (0 : Fin 2) = q0.val ∧ win0_2.index t (1 : Fin 2) = 0 :=
  (by decide +kernel : ∀ q0 : Fin 10, ∃ t : Fin grid0.N, _)

/-- One entry of what the body leaves, when the two input buffers hold the rows and the columns the entry needs. -/
theorem reg0_point (X : Vec Ideal S10240x768 .f32) (W : Vec Ideal S768x768 .bf16)
    (x0 : Vec Ideal S1024x768 .f32) (x1 : Vec Ideal S768x768 .bf16) (y : S1024x768.Idx) (i : S10240x768.Idx)
    (h0 : ∀ d : Fin 768, x0 (ix2 (⟨(y 0).val, (y 0).isLt⟩ : Fin 1024) d) = X (ix2 (⟨(i 0).val, (i 0).isLt⟩ : Fin 10240) d))
    (h1 : ∀ d : Fin 768, x1 (ix2 d (⟨(y 1).val, (y 1).isLt⟩ : Fin 768)) = W (ix2 d (⟨(i 1).val, (i 1).isLt⟩ : Fin 768))) :
    out0_2 x0 x1 y = reg0_G X W i := by
  have hy : y = ix2 (⟨(y 0).val, (y 0).isLt⟩ : Fin 1024) (⟨(y 1).val, (y 1).isLt⟩ : Fin 768) := eq_ix2 y
  rw [hy, reg0_out]
  unfold reg0_G
  exact Finset.sum_congr rfl fun d _ => by rw [h0 d, h1 d]

/-- What grid point `t` writes back is block `t` of the whole product. -/
theorem reg0_flushed (c : Dev nD) (t : Fin cfg0.N) :
    (dat0 (F := Ideal) V c).flushed 2 t = ((cfg0.win 2).blk t).view.read (Elt Ideal) (reg0_G (xpArr V c) (wArr V c)) := by
  show (cfg0.win 2).cut (grid0.coords t) ((dat0 V c).after 2 t) = _
  rw [after0_2]
  obtain ⟨e0, e1, e2, e3, e4, e5⟩ := reg0_idx_facts t
  funext y
  show out0_2 (iblk0 V c 0 t) (iblk0 V c 1 t) y = reg0_G (xpArr V c) (wArr V c) (((cfg0.win 2).blk t).view.emb y)
  refine reg0_point (xpArr V c) (wArr V c) (iblk0 V c 0 t) (iblk0 V c 1 t) y (((cfg0.win 2).blk t).view.emb y) ?_ ?_
  · intro d
    show V c main_v46 (((cfg0.win 0).blk t).view.emb (ix2 (⟨(y 0).val, (y 0).isLt⟩ : Fin 1024) d)) = V c main_v46 _
    refine congrArg (V c main_v46) (funext fun a => Fin.ext ?_)
    match a with
    | ⟨0, _⟩ => show win0_0.index t (0 : Fin 2) * 1024 + 1 * (y 0).val = win0_2.index t (0 : Fin 2) * 1024 + 1 * (y 0).val; omega
    | ⟨1, _⟩ => show win0_0.index t (1 : Fin 2) * 768 + 1 * d.val = d.val; omega
  · intro d
    show V c main_v47 (((cfg0.win 1).blk t).view.emb (ix2 d (⟨(y 1).val, (y 1).isLt⟩ : Fin 768))) = V c main_v47 _
    refine congrArg (V c main_v47) (funext fun a => Fin.ext ?_)
    match a with
    | ⟨0, _⟩ => show win0_1.index t (0 : Fin 2) * 768 + 1 * d.val = d.val; omega
    | ⟨1, _⟩ => show win0_1.index t (1 : Fin 2) * 768 + 1 * (y 1).val = win0_2.index t (1 : Fin 2) * 768 + 1 * (y 1).val; omega

/-- An index of the output array lies in point `t`'s block exactly when each coordinate lies in the block's range. -/
theorem reg0_mem_blk (t : Fin cfg0.N) (i : S10240x768.Idx) :
    i ∈ ((cfg0.win 2).blk t).view.set ↔ ∀ a : Fin 2, win0_2.index t a * S1024x768.size a ≤ (i a).val ∧ (i a).val < win0_2.index t a * S1024x768.size a + S1024x768.size a := by
  show i ∈ ((View.whole main_v48).slice (win0_2.rect t)).set ↔ _
  rw [View.set_slice_whole, Rect.mem_set_unit]
  exact Iff.rfl

/-- The ten blocks of 1024 rows cover the 10240 rows: row `r` lies in block `r / 1024`. -/
theorem reg0_cover (i : S10240x768.Idx) :
    ∃ t : Fin cfg0.N, (cfg0.win 2).flush t = true ∧ i ∈ ((cfg0.win 2).blk t).view.set := by
  have hi0 : (i 0).val < 10240 := (i 0).isLt
  have hi1 : (i 1).val < 768 := (i 1).isLt
  obtain ⟨t, q0, q1⟩ := reg0_idx_onto ⟨(i 0).val / 1024, by omega⟩
  refine ⟨t, flush0_2 t, ?_⟩
  rw [reg0_mem_blk]
  intro a
  match a with
  | ⟨0, _⟩ => show win0_2.index t (0 : Fin 2) * 1024 ≤ (i 0).val ∧ (i 0).val < win0_2.index t (0 : Fin 2) * 1024 + 1024; simp only at q0; omega
  | ⟨1, _⟩ => show win0_2.index t (1 : Fin 2) * 768 ≤ (i 1).val ∧ (i 1).val < win0_2.index t (1 : Fin 2) * 768 + 768; omega

/-- After the first pipeline its output array holds, at row `k` and column `j`, the product of row `k` of the padded
    features with column `j` of the weights: a change of float format is the identity at this instance. -/
theorem reg0_array (c : Dev nD) (k : Fin 10240) (j : Fin 768) :
    (dat0 (F := Ideal) V c).arrAt 2 cfg0.N (ix2 k j) = ∑ d : Fin 768, xpArr V c (ix2 k d) * wArr V c (ix2 d j) :=
  congrFun ((dat0 (F := Ideal) V c).arrAt_eq_of_cover 2 (reg0_G (xpArr V c) (wArr V c)) (fun t _ => reg0_flushed V c t) reg0_cover) (ix2 k j)

end Cert.KernelIdeal.RegVal

end
-- ==== Proof.KReg1.lean ====
/-
  The second matrix product plus bias, read off its pipeline at the exact (extended-real) instance.
  A block is 512 consecutive rows: at grid point t the pipeline hands the body rows 512·t … 512·t + 511 of the weight
  matrix together with the whole feature matrix and the whole bias row, and the body's one store leaves, at local
  row p and column q, the sum over all 10240 contracted positions of weight (512·t + p, k) times feature (k, q),
  plus the bias at q; that block is written back to the same 512 rows of the output. Row i of the output lies in the
  block of the one point t = i / 512 (since 512·(i / 512) ≤ i < 512·(i / 512) + 512 and 20 · 512 = 10240), so the twenty
  blocks cover every row and the output array is the full product plus the bias row, entry by entry.
-/
import proofs.«403808_j84464826843561_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegVal

open Cert.KernelIdeal Cert.KernelIdeal.Gen
open Idealize.ShloMosaic Idealize.ShloMosaic.TcCoe Idealize.ShloMosaic.ValueIdx Idealize.SL.Sem

/-! ## The body's value at one position of a block -/

/-- The body's loads and its store start at the origin of their buffers. -/
theorem reg1_hz : (![0, 0] : Fin 2 → Nat) = fun _ => 0 := funext fun a => by fin_cases a <;> rfl

/-- The product's left operand is read at the result's row … -/
theorem reg1_lhs_0 (j : S512x768.Idx) (k : dot_S512x10240_S10240x768_S512x768_1_0_0_1_n_n.contr.Idx) :
    (dot_S512x10240_S10240x768_S512x768_1_0_0_1_n_n.lhsIdx j k 0 : ℕ) = j 0 := by
  simp [DotDims.lhsIdx, dot_S512x10240_S10240x768_S512x768_1_0_0_1_n_n]; rfl
/-- … and at the contracted position as its column; -/
theorem reg1_lhs_1 (j : S512x768.Idx) (k : dot_S512x10240_S10240x768_S512x768_1_0_0_1_n_n.contr.Idx) :
    (dot_S512x10240_S10240x768_S512x768_1_0_0_1_n_n.lhsIdx j k 1 : ℕ) = k ⟨0, by decide⟩ := by
  simp [DotDims.lhsIdx, dot_S512x10240_S10240x768_S512x768_1_0_0_1_n_n]; rfl
/-- the right operand at the contracted position as its row … -/
theorem reg1_rhs_0 (j : S512x768.Idx) (k : dot_S512x10240_S10240x768_S512x768_1_0_0_1_n_n.contr.Idx) :
    (dot_S512x10240_S10240x768_S512x768_1_0_0_1_n_n.rhsIdx j k 0 : ℕ) = k ⟨0, by decide⟩ := by
  simp [DotDims.rhsIdx, dot_S512x10240_S10240x768_S512x768_1_0_0_1_n_n]; rfl
/-- … and at the result's column. -/
theorem reg1_rhs_1 (j : S512x768.Idx) (k : dot_S512x10240_S10240x768_S512x768_1_0_0_1_n_n.contr.Idx) :
    (dot_S512x10240_S10240x768_S512x768_1_0_0_1_n_n.rhsIdx j k 1 : ℕ) = j 1 := by
  simp [DotDims.rhsIdx, dot_S512x10240_S10240x768_S512x768_1_0_0_1_n_n]; rfl

/-- The product into a zero accumulator, at row `p` and column `q`, is the sum over the 10240 contracted positions of
    the left operand's entry in row `p` times the right operand's entry in column `q`: the accumulator contributes
    zero, and the contraction's one-axis index set is re-indexed by its coordinate. -/
theorem reg1_matmul (a : FVec Ideal S512x10240 .bf16) (h : FVec Ideal S10240x768 .bf16) (p : Fin 512) (q : Fin 768) :
    FloatOps.matmul dot_S512x10240_S10240x768_S512x768_1_0_0_1_n_n none a h (constant S512x768 .f32 0x00000000#32) (ix2 p q)
      = ∑ k : Fin 10240, a (ix2 p k) * h (ix2 k q) := by
  rw [Ideal.matmul_constant_zero_apply,
    ← Equiv.sum_comp (contrEquiv1 dot_S512x10240_S10240x768_S512x768_1_0_0_1_n_n 10240 rfl rfl).symm]
  refine Finset.sum_congr rfl fun c _ => ?_
  have hc := contrEquiv1_symm_val dot_S512x10240_S10240x768_S512x768_1_0_0_1_n_n 10240 rfl rfl c
  have hl : dot_S512x10240_S10240x768_S512x768_1_0_0_1_n_n.lhsIdx (ix2 p q)
      ((contrEquiv1 dot_S512x10240_S10240x768_S512x768_1_0_0_1_n_n 10240 rfl rfl).symm c) = ix2 p c := by
    funext ax; apply Fin.ext
    match ax with
    | ⟨0, _⟩ => exact reg1_lhs_0 _ _
    | ⟨1, _⟩ => exact (reg1_lhs_1 _ _).trans hc
  have hr : dot_S512x10240_S10240x768_S512x768_1_0_0_1_n_n.rhsIdx (ix2 p q)
      ((contrEquiv1 dot_S512x10240_S10240x768_S512x768_1_0_0_1_n_n 10240 rfl rfl).symm c) = ix2 c q := by
    funext ax; apply Fin.ext
    match ax with
    | ⟨0, _⟩ => exact (reg1_rhs_0 _ _).trans hc
    | ⟨1, _⟩ => exact reg1_rhs_1 _ _
  rw [hl, hr]

/-- The bias row repeated down 512 rows reads, at any row and column `q`, the row's entry at `q`. -/
theorem reg1_bias (b : FVec Ideal S1x768 .f32) (p : Fin 512) (q : Fin 768) :
    broadcastTo S512x768 b broadcasts_S1x768_S512x768 (ix2 p q) = b (ix2 (0 : Fin 1) q) := by
  refine broadcastTo_apply b broadcasts_S1x768_S512x768 (ix2 p q) (ix2 (0 : Fin 1) q) fun a => ?_
  match a with
  | ⟨0, _⟩ => rfl
  | ⟨1, _⟩ => rfl

/-- What the body leaves in the output's buffer at row `p` and column `q`, from the three buffers it loads: a
    reshape to the same shape changes nothing, so it is the product's entry plus the bias at `q`. -/
theorem reg1_payload (x0 : Vec Ideal S512x10240 .bf16) (x1 : Vec Ideal S10240x768 .bf16) (x2 : Vec Ideal S1x768 .f32)
    (p : Fin 512) (q : Fin 768) :
    out1_3 x0 x1 x2 (ix2 p q) = (∑ k : Fin 10240, x0 (ix2 p k) * x1 (ix2 k q)) + x2 (ix2 (0 : Fin 1) q) := by
  unfold out1_3
  rw [View.canon_unit_zero reg1_hz]
  simp only [View.ld_unit_zero (S := S512x10240) reg1_hz, View.ld_unit_zero (S := S10240x768) reg1_hz,
    View.ld_unit_zero (S := S1x768) reg1_hz]
  unfold k1_pay1
  simp only [shapeCast_self]
  exact congrArg₂ (· + ·) (reg1_matmul x0 x1 p q) (reg1_bias x2 p q)

/-- The same, when the first buffer's row `p` is row `r` of a matrix `A` and the other two buffers are `H` and `B`
    themselves: the entry is row `r` of `A` times column `q` of `H`, plus `B` at `q`. -/
theorem reg1_block (A : Vec Ideal S10240x10240 .bf16) (H : Vec Ideal S10240x768 .bf16) (B : Vec Ideal S1x768 .f32)
    (x0 : Vec Ideal S512x10240 .bf16) (x1 : Vec Ideal S10240x768 .bf16) (x2 : Vec Ideal S1x768 .f32)
    (p : Fin 512) (q : Fin 768) (r : Fin 10240)
    (h0 : ∀ k : Fin 10240, x0 (ix2 p k) = A (ix2 r k)) (h1 : x1 = H) (h2 : x2 = B) :
    out1_3 x0 x1 x2 (ix2 p q) = (∑ k : Fin 10240, A (ix2 r k) * H (ix2 k q)) + B (ix2 (0 : Fin 1) q) := by
  rw [reg1_payload, h1, h2]
  exact congrArg (· + B (ix2 (0 : Fin 1) q)) (Finset.sum_congr rfl fun k _ => by rw [h0 k])

/-! ## Which block each point handles -/

/-- At point `t` the weight matrix's window and the output's window are at row block `t` (column block 0), and the
    feature matrix's and the bias row's windows are their whole arrays: decided over the twenty points. -/
theorem reg1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The dense weight matrix as the second product finds it. -/
abbrev aArr (c : Dev nD) : Vec Ideal S10240x10240 .bf16 := V c main_v45
/-- The transformed features as the second product finds them. -/
abbrev hArr (c : Dev nD) : Vec Ideal S10240x768 .bf16 := V c main_v48
/-- The bias row as the second product finds it. -/
abbrev bArr (c : Dev nD) : Vec Ideal S1x768 .f32 := V c main_v49

/-! ## From the blocks to the array -/

/-- The claimed entry at row `r` and column `q`: row `r` of the weight matrix times column `q` of the features, plus the
    bias at `q`. -/
def reg1_entry (c : Dev nD) (r : Fin 10240) (q : Fin 768) : Ideal .f32 :=
  (∑ k : Fin 10240, aArr V c (ix2 r k) * hArr V c (ix2 k q)) + bArr V c (ix2 (0 : Fin 1) q)

/-- The claimed output array, as one function of the position. -/
abbrev reg1_G (c : Dev nD) : Vec Ideal S10240x768 .f32 := fun i => reg1_entry V c (i 0) (i 1)

/-- What point `t` writes back is block `t` of the claimed array: local row `p` of the block is row `512·t + p` of the
    array and of the weight matrix's block, the columns are the array's own, and the other two windows hold their whole
    arrays. -/
theorem reg1_flushed (c : Dev nD) (t : Fin cfg1.N) :
    (dat1 (F := Ideal) V c).flushed 3 t = ((cfg1.win 3).blk t).view.read (Elt Ideal) (reg1_G V c) := by
  obtain ⟨e00, e01, e10, e11, e20, e21, e30, e31⟩ := reg1_idx t
  have hN : cfg1.N = 20 := N_1
  have ht : t.val < 20 := hN ▸ t.isLt
  show (cfg1.win 3).cut (grid1.coords t) ((dat1 V c).after 3 t) = _
  rw [after1_3]
  funext y
  have hy0 : (y 0).val < 512 := (y 0).isLt
  have hy1 : (y 1).val < 768 := (y 1).isLt
  have hx : (cfg1.win 3).xinj (grid1.coords t) y = (ix2 (⟨(y 0).val, hy0⟩ : Fin 512) (⟨(y 1).val, hy1⟩ : Fin 768) : S512x768.Idx) :=
    funext fun a => by match a with | ⟨0, _⟩ => rfl | ⟨1, _⟩ => rfl
  have hemb : ((cfg1.win 3).blk t).view.emb y
      = (ix2 (⟨t.val * 512 + (y 0).val, by omega⟩ : Fin 10240) (⟨(y 1).val, hy1⟩ : Fin 768) : S10240x768.Idx) :=
    funext fun a => Fin.ext (by
      match a with
      | ⟨0, _⟩ => show win1_3.index t (0 : Fin 2) * 512 + 1 * (y 0).val = t.val * 512 + (y 0).val; rw [e30]; omega
      | ⟨1, _⟩ => show win1_3.index t (1 : Fin 2) * 768 + 1 * (y 1).val = (y 1).val; rw [e31]; omega)
  show out1_3 (iblk1 V c 0 t) (iblk1 V c 1 t) (iblk1 V c 2 t) ((cfg1.win 3).xinj (grid1.coords t) y)
    = reg1_G V c (((cfg1.win 3).blk t).view.emb y)
  rw [hx, hemb]
  refine reg1_block (aArr V c) (hArr V c) (bArr V c) (iblk1 V c 0 t) (iblk1 V c 1 t) (iblk1 V c 2 t)
    ⟨(y 0).val, hy0⟩ ⟨(y 1).val, hy1⟩ ⟨t.val * 512 + (y 0).val, by omega⟩ (fun k => ?_) ?_ ?_
  · show V c main_v45 (((cfg1.win 0).blk t).view.emb (ix2 (⟨(y 0).val, hy0⟩ : Fin 512) k)) = V c main_v45 (ix2 (⟨t.val * 512 + (y 0).val, by omega⟩ : Fin 10240) k)
    refine congrArg (V c main_v45) (funext fun a => Fin.ext ?_)
    match a with
    | ⟨0, _⟩ => show win1_0.index t (0 : Fin 2) * 512 + 1 * (y 0).val = t.val * 512 + (y 0).val; rw [e00]; omega
    | ⟨1, _⟩ => show win1_0.index t (1 : Fin 2) * 10240 + 1 * k.val = k.val; rw [e01]; omega
  · funext x
    show V c main_v48 (((cfg1.win 1).blk t).view.emb x) = V c main_v48 x
    refine congrArg (V c main_v48) (funext fun a => Fin.ext ?_)
    match a with
    | ⟨0, _⟩ => show win1_1.index t (0 : Fin 2) * 10240 + 1 * (x 0).val = (x 0).val; rw [e10]; omega
    | ⟨1, _⟩ => show win1_1.index t (1 : Fin 2) * 768 + 1 * (x 1).val = (x 1).val; rw [e11]; omega
  · funext x
    show V c main_v49 (((cfg1.win 2).blk t).view.emb x) = V c main_v49 x
    refine congrArg (V c main_v49) (funext fun a => Fin.ext ?_)
    match a with
    | ⟨0, _⟩ => show win1_2.index t (0 : Fin 2) * 1 + 1 * (x 0).val = (x 0).val; rw [e20]; omega
    | ⟨1, _⟩ => show win1_2.index t (1 : Fin 2) * 768 + 1 * (x 1).val = (x 1).val; rw [e21]; omega

/-- A position of the output array is in point `t`'s block iff, on each axis, its coordinate lies in the block's
    range: from the block's index times the block's extent, for one extent. -/
theorem reg1_mem_blk (t : Fin cfg1.N) (i : S10240x768.Idx) :
    i ∈ ((cfg1.win 3).blk t).view.set ↔ ∀ a : Fin 2, win1_3.index t a * S512x768.size a ≤ (i a).val ∧ (i a).val < win1_3.index t a * S512x768.size a + S512x768.size a := by
  show i ∈ ((View.whole main_v50).slice (win1_3.rect t)).set ↔ _
  rw [View.set_slice_whole, Rect.mem_set_unit]
  exact Iff.rfl

/-- Every position is in some point's block: row `i` is among the 512 rows of point `i / 512`, and a block spans all
    768 columns. -/
theorem reg1_cover (i : S10240x768.Idx) :
    ∃ t : Fin cfg1.N, (cfg1.win 3).flush t = true ∧ i ∈ ((cfg1.win 3).blk t).view.set := by
  have hi0 : (i 0).val < 10240 := idx2_lt0 i
  have hi1 : (i 1).val < 768 := idx2_lt1 i
  have hN : cfg1.N = 20 := N_1
  have ht : (i 0).val / 512 < cfg1.N := by rw [hN]; omega
  obtain ⟨_, _, _, _, _, _, e30, e31⟩ := reg1_idx ⟨(i 0).val / 512, ht⟩
  refine ⟨⟨(i 0).val / 512, ht⟩, flush1_3 _, ?_⟩
  rw [reg1_mem_blk]
  intro a
  match a with
  | ⟨0, _⟩ =>
    show win1_3.index ⟨(i 0).val / 512, ht⟩ (0 : Fin 2) * 512 ≤ (i 0).val ∧ (i 0).val < win1_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win1_3.index ⟨(i 0).val / 512, ht⟩ (1 : Fin 2) * 768 ≤ (i 1).val ∧ (i 1).val < win1_3.index ⟨(i 0).val / 512, ht⟩ (1 : Fin 2) * 768 + 768
    rw [e31]; omega

/-- After the second pipeline its output array holds, at row `i` and column `j`, row `i` of the weight matrix times column
    `j` of the transformed features, plus the bias at `j`. -/
theorem reg1_array (c : Dev nD) (i : Fin 10240) (j : Fin 768) :
    (dat1 (F := Ideal) V c).arrAt 3 cfg1.N (ix2 i j)
      = (∑ k : Fin 10240, aArr V c (ix2 i k) * hArr V c (ix2 k j)) + bArr V c (ix2 (0 : Fin 1) j) := by
  have h := (dat1 (F := Ideal) V c).arrAt_eq_of_cover 3 (reg1_G V c) (fun t _ => reg1_flushed V c t) reg1_cover
  exact congrFun h (ix2 i j)

end Cert.KernelIdeal.RegVal

end
-- ==== Proof.Spec.lean ====
/-
  The mathematics of the certificate, over plain functions and free of both programs.

  A graph on 10000 nodes is given by a list of 110000 directed edges `e : src e → dst e` (the input's 100000
  edges followed by one self-loop per node), each edge carrying a weight `nrm e` (the symmetric degree
  normalisation `d(src e)^(-1/2) · d(dst e)^(-1/2)`). With `h = x · W` the layer's result at node `i`, feature `j`
  is the weighted sum of `h` over the edges into `i`, plus the bias:

      out i j = (∑_{e : dst e = i} h (src e) j · nrm e) + b j.                                   (edge form)

  The other program first collects the weights into a dense 10240 × 10240 matrix
  `adj i k = ∑_{e : dst e = i, src e = k} nrm e`, pads `x` with 240 zero rows, and multiplies:

      out i j = (∑_{k < 10240} adj i k · (xpad · W) k j) + b j.                                   (matrix form)

  The two agree whenever every `x`, `W` and `nrm` entry is a real number: a sum over the edges into `i` splits
  by the edge's source, `(∑ nrm e) · h = ∑ nrm e · h` is distributivity over the reals (it fails on the extended reals only at
  infinities), and no edge has a source among the padded rows.
-/
import Idealize.ShloMosaic.PureOps.Ideal
import Idealize.ShloMosaic.Lib.ValueIdx

noncomputable section

open scoped BigOperators

namespace Cert.Spec

open Idealize.ShloMosaic Idealize.ShloMosaic.ValueIdx

/-- A rank-1 array of extended reals. -/
abbrev A1 (n : Nat) := (⟨1, ![n]⟩ : Shape).Idx → EReal
/-- A rank-2 array of extended reals. -/
abbrev A2 (a b : Nat) := (⟨2, ![a, b]⟩ : Shape).Idx → EReal

/-- A 32-bit index word normalised the way array indexing does it: a negative word counts from the end of an axis of extent `N`. -/
def norm (N : Nat) (w : BitVec 32) : BitVec 32 := if w.slt 0#32 then w + BitVec.ofNat 32 N else w

/-- `(x · W) k j`. -/
def lin (x : A2 10000 768) (W : A2 768 768) (k : Fin 10000) (j : Fin 768) : EReal :=
  ∑ d : Fin 768, x (ix2 k d) * W (ix2 d j)

/-- The edge form of the layer at node `i`, feature `j`. -/
def edgeOut (x : A2 10000 768) (W : A2 768 768) (b : A1 768) (src dst : Fin 110000 → Fin 10000) (nrm : Fin 110000 → EReal)
    (i : Fin 10000) (j : Fin 768) : EReal :=
  (0 + ∑ e ∈ Finset.univ.filter (fun e : Fin 110000 => dst e = i), lin x W (src e) j * nrm e) + b (ix1 j)

/-- `x` with 240 zero rows appended. -/
def padRows (x : A2 10000 768) : A2 10240 768 :=
  fun p => if h : (p 0).val < 10000 then x (ix2 ⟨(p 0).val, h⟩ (p 1)) else 0

/-- `(xp · W) k j` for the padded rows. -/
def linPad (xp : A2 10240 768) (W : A2 768 768) (k : Fin 10240) (j : Fin 768) : EReal :=
  ∑ d : Fin 768, xp (ix2 k d) * W (ix2 d j)

/-- The dense weight matrix: entry `(i, k)` collects the weights of the edges from `k` into `i`. -/
def adj (src dst : Fin 110000 → Fin 10000) (nrm : Fin 110000 → EReal) (i k : Fin 10240) : EReal :=
  0 + ∑ e ∈ Finset.univ.filter (fun e : Fin 110000 => (dst e).val = i.val ∧ (src e).val = k.val), nrm e

/-- The matrix form of the layer at node `i`, feature `j`. -/
def matOut (x : A2 10000 768) (W : A2 768 768) (b : A1 768) (src dst : Fin 110000 → Fin 10000) (nrm : Fin 110000 → EReal)
    (i : Fin 10000) (j : Fin 768) : EReal :=
  (∑ k : Fin 10240, adj src dst nrm (i.castLE (by decide)) k * linPad (padRows x) W k j) + b (ix1 j)

/-- The coercion of the reals into the extended reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: the sum over the edges into `i` splits by the edge's source, the weights of one source
    factor out of the sum by distributivity, and a padded row is the source of no edge. -/
private theorem real_identity (src dst : Fin 110000 → Fin 10000) (nr : Fin 110000 → ℝ) (L : Fin 10000 → ℝ) (i : Fin 10000) :
    ∑ k : Fin 10240, (∑ e ∈ Finset.univ.filter (fun e : Fin 110000 => (dst e).val = i.val ∧ (src e).val = k.val), nr e) *
        (if h : k.val < 10000 then L ⟨k.val, h⟩ else 0)
      = ∑ e ∈ Finset.univ.filter (fun e : Fin 110000 => dst e = i), L (src e) * nr e := by
  rw [← Finset.sum_fiberwise_of_maps_to (s := Finset.univ.filter (fun e : Fin 110000 => dst e = i)) (t := Finset.univ)
    (g := fun e => ((src e).castLE (by decide) : Fin 10240)) (fun _ _ => Finset.mem_univ _)]
  refine Finset.sum_congr rfl fun k _ => ?_
  rw [Finset.sum_mul, Finset.filter_filter]
  refine Finset.sum_congr ?_ ?_
  · ext e
    simp only [Finset.mem_filter, Finset.mem_univ, true_and, Fin.ext_iff, Fin.coe_castLE]
  · intro e he
    simp only [Finset.mem_filter, Finset.mem_univ, true_and] at he
    have hsk : (src e).val = k.val := by rw [← he.2]; rfl
    have hk : k.val < 10000 := by have := (src e).isLt; omega
    rw [dif_pos hk, mul_comm]
    congr 2
    exact Fin.ext hsk.symm

/-- The matrix form is the edge form, where every entry of `x`, `W` and every weight is a real number. -/
theorem matOut_eq_edgeOut (x : A2 10000 768) (W : A2 768 768) (b : A1 768) (src dst : Fin 110000 → Fin 10000)
    (nrm : Fin 110000 → EReal) (hx : ∀ p, ∃ r : ℝ, x p = (r : EReal)) (hW : ∀ p, ∃ r : ℝ, W p = (r : EReal))
    (hn : ∀ e, ∃ r : ℝ, nrm e = (r : EReal)) (i : Fin 10000) (j : Fin 768) :
    matOut x W b src dst nrm i j = edgeOut x W b src dst nrm i j := by
  choose xr hxr using hx
  choose Wr hWr using hW
  choose nr hnr using hn
  have hlin : ∀ k : Fin 10000, lin x W k j = ((∑ d : Fin 768, xr (ix2 k d) * Wr (ix2 d j) : ℝ) : EReal) := by
    intro k
    unfold lin
    rw [coe_sum]
    refine Finset.sum_congr rfl fun d _ => ?_
    rw [hxr, hWr, EReal.coe_mul]
  have hpad : ∀ k : Fin 10240, linPad (padRows x) W k j
      = ((if h : k.val < 10000 then ∑ d : Fin 768, xr (ix2 ⟨k.val, h⟩ d) * Wr (ix2 d j) else 0 : ℝ) : EReal) := by
    intro k
    unfold linPad
    by_cases h : k.val < 10000
    · rw [dif_pos h, coe_sum]
      refine Finset.sum_congr rfl fun d _ => ?_
      have e1 : padRows x (ix2 k d) = x (ix2 ⟨k.val, h⟩ d) := dif_pos h
      rw [e1, hxr, hWr, EReal.coe_mul]
    · rw [dif_neg h, EReal.coe_zero]
      refine Finset.sum_eq_zero fun d _ => ?_
      have e1 : padRows x (ix2 k d) = 0 := dif_neg h
      rw [e1, zero_mul]
  have hadj : ∀ k : Fin 10240, adj src dst nrm (i.castLE (by decide)) k
      = ((∑ e ∈ Finset.univ.filter (fun e : Fin 110000 => (dst e).val = i.val ∧ (src e).val = k.val), nr e : ℝ) : EReal) := by
    intro k
    unfold adj
    rw [zero_add, coe_sum]
    refine Finset.sum_congr rfl fun e _ => ?_
    rw [hnr]
  have hL : ∑ k : Fin 10240, adj src dst nrm (i.castLE (by decide)) k * linPad (padRows x) W k j
      = ((∑ k : Fin 10240, (∑ e ∈ Finset.univ.filter (fun e : Fin 110000 => (dst e).val = i.val ∧ (src e).val = k.val), nr e) *
          (if h : k.val < 10000 then (fun k' : Fin 10000 => ∑ d : Fin 768, xr (ix2 k' d) * Wr (ix2 d j)) ⟨k.val, h⟩ else 0) : ℝ) : EReal) := by
    rw [coe_sum]
    refine Finset.sum_congr rfl fun k _ => ?_
    rw [hadj, hpad, EReal.coe_mul]
  have hR : ∑ e ∈ Finset.univ.filter (fun e : Fin 110000 => dst e = i), lin x W (src e) j * nrm e
      = ((∑ e ∈ Finset.univ.filter (fun e : Fin 110000 => dst e = i),
          (fun k' : Fin 10000 => ∑ d : Fin 768, xr (ix2 k' d) * Wr (ix2 d j)) (src e) * nr e : ℝ) : EReal) := by
    rw [coe_sum]
    refine Finset.sum_congr rfl fun e _ => ?_
    rw [hlin, hnr, EReal.coe_mul]
  unfold matOut edgeOut
  rw [zero_add, hL, hR]
  exact congrArg (fun t : ℝ => (t : EReal) + b (ix1 j))
    (real_identity src dst nr (fun k' : Fin 10000 => ∑ d : Fin 768, xr (ix2 k' d) * Wr (ix2 d j)) i)

end Cert.Spec

end
-- ==== Proof.KPlumb.lean ====
/-
  The buffers the two matrix products read and the result buffer, traced through the host operations around them, at the
  exact (extended-real) instance.
  The first product reads the features with 240 rows of the converted integer constant 0 appended (the pad of the feature
  argument) and the weights (a change of float format of the weight argument, which is the identity on extended reals); the
  second product reads the dense weight matrix the host operations wrote before the first product, the first product's
  output array, and the bias argument reshaped to one row; the result is the first 10000 rows of the second product's output
  array. From the operation that writes one of these buffers to the product that reads it, every host operation writes some
  other buffer and a product's pipeline rewrites its own window arrays only, so the contents are carried unchanged; the
  arguments themselves are written by nothing, and hold what they held at the launch.
-/
import proofs.«403808_j84464826843561_3_alg».proof.Proof.Gen.KernelIdeal.Frame
import proofs.«403808_j84464826843561_3_alg».proof.Proof.Spec
import Idealize.ShloMosaic.Lib.ValueIdx
import Idealize.ShloMosaic.Lib.Pipeline.Value
import Idealize.ShloMosaic.Lib.StableHlo.Run
import Idealize.ShloMosaic.Lib.ValueLayout
import Idealize.ShloMosaic.Lib.KernelVsHost

set_option maxRecDepth 16384

noncomputable section

open scoped BigOperators

namespace Cert.KernelIdeal.HostVal

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- A stretch of host operations leaves a buffer none of them writes as it was. -/
local macro "no_write " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The feature argument is as launched up to the stretch that pads it: no earlier host operation writes it. -/
private theorem W3_arg0 (c : Dev nD) :
    W3 m ρ c (Proc.devRef .tc main_arg0) = m ((c.tc : Thread nD τ).loc main_arg0) :=
  calc W3 m ρ c (Proc.devRef .tc main_arg0)
    _ = W2 m ρ c (Proc.devRef .tc main_arg0) := by no_write hostOps0_2
    _ = W1 m ρ c (Proc.devRef .tc main_arg0) := by no_write hostOps0_1
    _ = W0 m ρ c (Proc.devRef .tc main_arg0) := by no_write hostOps0
    _ = m ((c.tc : Thread nD τ).loc main_arg0) := rfl

/-- The weight argument is as launched up to the stretch that changes its format. -/
private theorem W4_arg2 (c : Dev nD) :
    W4 m ρ c (Proc.devRef .tc main_arg2) = m ((c.tc : Thread nD τ).loc main_arg2) :=
  calc W4 m ρ c (Proc.devRef .tc main_arg2)
    _ = W3 m ρ c (Proc.devRef .tc main_arg2) := by no_write hostOps0_3
    _ = W2 m ρ c (Proc.devRef .tc main_arg2) := by no_write hostOps0_2
    _ = W1 m ρ c (Proc.devRef .tc main_arg2) := by no_write hostOps0_1
    _ = W0 m ρ c (Proc.devRef .tc main_arg2) := by no_write hostOps0
    _ = m ((c.tc : Thread nD τ).loc main_arg2) := rfl

/-- The bias argument is as launched when the first product is over: no host operation writes it, and it is no
    array of the first product. -/
private theorem W6_arg3 (c : Dev nD) :
    W6 m ρ c (Proc.devRef .tc main_arg3) = m ((c.tc : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by no_write hostOps0_4
    _ = W3 m ρ c (Proc.devRef .tc main_arg3) := by no_write hostOps0_3
    _ = W2 m ρ c (Proc.devRef .tc main_arg3) := by no_write hostOps0_2
    _ = W1 m ρ c (Proc.devRef .tc main_arg3) := by no_write hostOps0_1
    _ = W0 m ρ c (Proc.devRef .tc main_arg3) := by no_write hostOps0
    _ = m ((c.tc : Thread nD τ).loc main_arg3) := rfl

/-- The padding value: the integer constant 0 the host operations wrote last before the pad, converted. -/
private theorem W3_c11 (c : Dev nD) : W3 m ρ c (Proc.devRef .tc main_c_11) = constantI S_ 32 0#32 := by
  show StableHlo.after hostOps0_2 (W2 m ρ c) (Proc.devRef .tc main_c_11) = _
  generalize W2 m ρ c = V
  after_results

/-- The result is the first 10000 rows of the second product's output array. -/
theorem W9_v51_apply (c : Dev nD) (i : Fin 10000) (j : Fin 768) :
    W9 m ρ c (Proc.devRef .tc main_v51) (ix2 i j)
      = (dat1 (F := Ideal) (V7 m ρ) c).arrAt 3 cfg1.N (ix2 (i.castLE (by decide) : Fin 10240) j) := by
  have e : W9 m ρ c (Proc.devRef .tc main_v51)
      = extractStridedSlice S10000x768 ![0, 0] (W8 m ρ c (Proc.devRef .tc main_v50)) slices_S10240x768_S10000x768_0_0 := by
    show StableHlo.after hostOps2 (W8 m ρ c) (Proc.devRef .tc main_v51) = _
    generalize W8 m ρ c = V
    after_results
  rw [e]
  refine (slice2_axis0_apply (n0 := 10240) (n1 := 768) (m := 10000) 0 (W8 m ρ c (Proc.devRef .tc main_v50))
    slices_S10240x768_S10000x768_0_0 i j (i.castLE (by decide)) (Nat.zero_add _).symm).trans ?_
  exact congrFun (W8_arr m ρ c 3) _

/-- The second product reads the dense weight matrix the host operations left before the first product. -/
theorem V7_v45 (c : Dev nD) : V7 m ρ c main_v45 = W5 m ρ c (Proc.devRef .tc main_v45) :=
  calc V7 m ρ c main_v45
    _ = W6 m ρ c (Proc.devRef .tc main_v45) := by no_write hostOps1
    _ = W5 m ρ c (Proc.devRef .tc main_v45) := W6_of_ne m ρ c main_v45 (by decide)

/-- The second product reads the first product's output array. -/
theorem V7_v48 (c : Dev nD) : V7 m ρ c main_v48 = (dat0 (F := Ideal) (V5 m ρ) c).arrAt 2 cfg0.N :=
  calc V7 m ρ c main_v48
    _ = W6 m ρ c (Proc.devRef .tc main_v48) := by no_write hostOps1
    _ = (dat0 (F := Ideal) (V5 m ρ) c).arrAt 2 cfg0.N := W6_arr m ρ c 2

/-- The bias row is the bias. -/
theorem V7_v49_apply (c : Dev nD) (j : Fin 768) :
    V7 m ρ c main_v49 (ix2 (0 : Fin 1) j) = m ((c.tc : Thread nD τ).loc main_arg3) (ix1 j) := by
  have e : V7 m ρ c main_v49
      = shapeCast S1x768 (W6 m ρ c (Proc.devRef .tc main_arg3)) shapeCasts_S768_S1x768 := by
    show StableHlo.after hostOps1 (W6 m ρ c) (Proc.devRef .tc main_v49) = _
    generalize W6 m ρ c = V
    after_results
    rfl
  rw [e]
  refine (shapeCast_apply _ _ (ix2 (0 : Fin 1) j) (ix1 j) ?_).trans (congrFun (W6_arg3 m ρ c) _)
  rw [Shape.rowMajor_val_one, Shape.rowMajor_val_two]
  show j.val = (0 : Fin 1).val * 768 + j.val
  simp

/-- The first product reads the features with 240 zero rows appended. -/
theorem V5_v46_apply (c : Dev nD) (k : Fin 10240) (d : Fin 768) :
    V5 m ρ c main_v46 (ix2 k d) = Cert.Spec.padRows (m ((c.tc : Thread nD τ).loc main_arg0)) (ix2 k d) := by
  have e : V5 m ρ c main_v46
      = pad S10240x768 ![0, 0] ![240, 0] ![0, 0] (W3 m ρ c (Proc.devRef .tc main_arg0))
          (sitofp .f32 (W3 m ρ c (Proc.devRef .tc main_c_11)) : FVec Ideal S_ .f32)
          pads_S10000x768_S10240x768_02400_000 h_S_ :=
    calc V5 m ρ c main_v46
      _ = W4 m ρ c (Proc.devRef .tc main_v46) := by no_write hostOps0_4
      _ = _ := by
        show StableHlo.after hostOps0_3 (W3 m ρ c) (Proc.devRef .tc main_v46) = _
        generalize W3 m ρ c = V
        after_results
        simp only [StableHlo.TRef.ofBuf, StableHlo.TRef.toBuf, cast_eq]
  rw [e, W3_arg0 m ρ c, W3_c11 m ρ c]
  unfold Cert.Spec.padRows
  by_cases hk : k.val < 10000
  · rw [dif_pos (show ((ix2 k d : (⟨2, ![10240, 768]⟩ : Shape).Idx) 0).val < 10000 from hk)]
    exact pad_apply_of_inside _ _ _ _ _ _ _ (ix2 k d) (ix2 ⟨k.val, hk⟩ d) (fun a => by
      match a with
      | ⟨0, _⟩ => show k.val = 0 + k.val * (0 + 1); omega
      | ⟨1, _⟩ => show d.val = 0 + d.val * (0 + 1); omega)
  · rw [dif_neg (show ¬ ((ix2 k d : (⟨2, ![10240, 768]⟩ : Shape).Idx) 0).val < 10000 from hk)]
    refine (pad_apply_of_not_inside _ _ _ _ _ _ _ (ix2 k d) (0 : Fin 2) (fun h => hk ?_)).trans ?_
    · have h3 : (k.val - 0) / (0 + 1) < 10000 := h.2.2
      omega
    · rw [sitofp_apply, constantI_apply]
      exact sitofp_zero (φ := .f32)

/-- The first product reads the weights: a change of float format is the identity at this instance. -/
theorem V5_v47_apply (c : Dev nD) (d : Fin 768) (j : Fin 768) :
    V5 m ρ c main_v47 (ix2 d j) = m ((c.tc : Thread nD τ).loc main_arg2) (ix2 d j) := by
  refine Eq.trans ?_ (congrFun (W4_arg2 m ρ c) (ix2 d j))
  show StableHlo.after hostOps0_4 (W4 m ρ c) (Proc.devRef .tc main_v47) (ix2 d j)
    = W4 m ρ c (Proc.devRef .tc main_arg2) (ix2 d j)
  generalize W4 m ρ c = V
  after_results
  rfl

end Cert.KernelIdeal.HostVal

end
-- ==== Proof.LibScatterRead.lean ====
/-
  A host scatter-add read at one element, at the exact (extended-real) instance, for the two index layouts met
  when a sparse linear map given by an edge list is applied:

  * the COLUMN scatter: updates `[B, n]`, one column index per edge; update `(b, e)` lands at `(b, idx e)`,
    so element `(b, c)` collects the updates `(b, e)` over the edges `e` whose index is `c`;
  * the POINT scatter: updates `[n]`, a (row, column) pair per edge; update `e` lands at `(row e, col e)`,
    so element `(k, c)` collects the updates over the edges whose pair is `(k, c)`.

  In both an index outside the operand (read as a signed integer, not clamped) drops its update, which the
  integer equations under the sums say by themselves: no element's coordinate equals such an index.

  Beside them: the index normalisation (a negative word counts from the end of the axis) read at an index, and
  the two-column index array built by concatenating two one-column arrays read at an index.
-/
import Idealize.ShloMosaic.PureOps.Ideal
import Idealize.ShloMosaic.PureOps.Contract
import Idealize.ShloMosaic.Lib.ValueIdx
import Idealize.ShloMosaic.Lib.Pipeline.Value
import proofs.«403808_j84464826843561_3_alg».proof.Proof.Spec

noncomputable section

open scoped BigOperators

namespace Cert.Lib.ScatterRead

open Idealize.ShloMosaic Idealize.ShloMosaic.ValueIdx Cert.Spec

/-! ## When an update lands at a given element -/

/-- An update lands at element `i` exactly when, on every axis, its start plus its window coordinate is
    `i`'s coordinate as an integer: being inside the operand is then automatic, and outside it no element matches. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · intro hf a
      have := congrArg (fun f => (f a).val) hf
      simp only at this
      have h' := h a
      omega
    · intro hf
      funext a
      apply Fin.ext
      have := hf a
      simp only
      omega
  · next h =>
    constructor
    · intro hf; exact absurd hf (by simp)
    · intro hf
      exfalso; apply h
      intro a
      have := hf a
      have := (i a).isLt
      omega

/-! ## The column scatter -/

section Col
variable {B C n : Nat}

/-- The column scatter's dimension numbers, as a record. -/
private abbrev colDims (wf : ScatterDims.WF ⟨2, ![B, C]⟩ ⟨2, ![n, 1]⟩ ⟨2, ![B, n]⟩ [0] [1] [1] 1) :
    ScatterDims ⟨2, ![B, C]⟩ ⟨2, ![n, 1]⟩ ⟨2, ![B, n]⟩ where
  updateWindowDims := [0]
  insertedWindowDims := [1]
  scatterDimsToOperandDims := [1]
  indexVectorDim := 1
  wf := wf

variable (wf : ScatterDims.WF ⟨2, ![B, C]⟩ ⟨2, ![n, 1]⟩ ⟨2, ![B, n]⟩ [0] [1] [1] 1)
  (idx : IVec ⟨2, ![n, 1]⟩ 32) (j : (⟨2, ![B, n]⟩ : Shape).Idx)

private theorem col_start0 : (colDims wf).start j idx 0 = 0 := by
  unfold ScatterDims.start
  rw [dif_neg (show ¬ (0 : Fin 2) ∈ ([1] : List (Fin 2)) from by decide)]

private theorem col_start1 : (colDims wf).start j idx 1 = (idx (ix2 (j 1) (0 : Fin 1))).toInt := by
  unfold ScatterDims.start
  rw [dif_pos (show (1 : Fin 2) ∈ (colDims wf).scatterDimsToOperandDims from List.mem_singleton.mpr rfl)]
  congr 2
  funext b; refine Fin.ext ?_
  match b with
  | ⟨0, _⟩ => rfl
  | ⟨1, _⟩ => rfl

private theorem col_window0 : (colDims wf).window j 0 = (j 0).val := by
  rfl

private theorem col_window1 : (colDims wf).window j 1 = 0 := by
  rfl

/-- Where update `j` of the column scatter lands: at `(b, c)` exactly when its row is `b` and its edge's index is `c`. -/
private theorem col_lands (b : Fin B) (c : Fin C) :
    (colDims wf).resultIdx? j idx = some (ix2 b c)
      ↔ (j 0 : Fin B) = b ∧ (idx (ix2 (j 1) (0 : Fin 1))).toInt = (c.val : ℤ) := by
  rw [resultIdx?_eq_some_iff, Fin.forall_fin_two, col_start0, col_start1, col_window0, col_window1]
  show (0 + (((j 0 : Fin B).val : ℕ) : ℤ) = ((b.val : ℕ) : ℤ)) ∧ (_ + ((0 : ℕ) : ℤ) = ((c.val : ℕ) : ℤ)) ↔ _
  constructor
  · rintro ⟨h0, h1⟩
    exact ⟨Fin.ext (by omega), by omega⟩
  · rintro ⟨h0, h1⟩
    exact ⟨by rw [h0]; omega, by omega⟩

end Col

/-- The column scatter-add at element `(b, c)`: the operand's element plus the updates `(b, e)` over the edges
    `e` whose index word, read signed, is `c`. -/
theorem scatterAdd_col_read {B C n : Nat} {φ : FTy} (d : ScatterDims ⟨2, ![B, C]⟩ ⟨2, ![n, 1]⟩ ⟨2, ![B, n]⟩)
    (h1 : d.updateWindowDims = [0]) (h2 : d.insertedWindowDims = [1]) (h3 : d.scatterDimsToOperandDims = [1])
    (h4 : d.indexVectorDim = 1)
    (x : A2 B C) (idx : IVec ⟨2, ![n, 1]⟩ 32) (upd : A2 B n) (b : Fin B) (c : Fin C) :
    Host.scatterAdd (F := Ideal) (φ := φ) d x idx upd (ix2 b c)
      = x (ix2 b c) + ∑ e ∈ Finset.univ.filter (fun e : Fin n => (idx (ix2 e (0 : Fin 1))).toInt = (c.val : ℤ)),
          upd (ix2 b e) := by
  obtain ⟨uw, iw, sd, iv, wf⟩ := d
  dsimp only at h1 h2 h3 h4
  subst h1 h2 h3 h4
  show Ideal.hostScatterAdd (colDims wf) x idx upd (ix2 b c) = _
  unfold Ideal.hostScatterAdd
  congr 1
  refine Finset.sum_nbij' (fun j => (j 1 : Fin n)) (fun e => ix2 b e) ?_ ?_ ?_ ?_ ?_
  · intro j hj
    exact Finset.mem_filter.mpr ⟨Finset.mem_univ _, ((col_lands wf idx j b c).mp (Finset.mem_filter.mp hj).2).2⟩
  · intro e he
    exact Finset.mem_filter.mpr
      ⟨Finset.mem_univ _, (col_lands wf idx (ix2 b e) b c).mpr ⟨rfl, (Finset.mem_filter.mp he).2⟩⟩
  · intro j hj
    have h0 := ((col_lands wf idx j b c).mp (Finset.mem_filter.mp hj).2).1
    rw [← h0]; exact (eq_ix2 j).symm
  · intro e _; rfl
  · intro j hj
    have h0 := ((col_lands wf idx j b c).mp (Finset.mem_filter.mp hj).2).1
    rw [← h0]; exact congrArg upd (eq_ix2 j)

/-! ## The point scatter -/

section Point
variable {K C n : Nat}

/-- The point scatter's dimension numbers, as a record. -/
private abbrev pointDims (wf : ScatterDims.WF ⟨2, ![K, C]⟩ ⟨2, ![n, 2]⟩ ⟨1, ![n]⟩ [] [0, 1] [0, 1] 1) :
    ScatterDims ⟨2, ![K, C]⟩ ⟨2, ![n, 2]⟩ ⟨1, ![n]⟩ where
  updateWindowDims := []
  insertedWindowDims := [0, 1]
  scatterDimsToOperandDims := [0, 1]
  indexVectorDim := 1
  wf := wf

variable (wf : ScatterDims.WF ⟨2, ![K, C]⟩ ⟨2, ![n, 2]⟩ ⟨1, ![n]⟩ [] [0, 1] [0, 1] 1)
  (idx : IVec ⟨2, ![n, 2]⟩ 32) (j : (⟨1, ![n]⟩ : Shape).Idx)

private theorem point_start0 : (pointDims wf).start j idx 0 = (idx (ix2 (j 0) (0 : Fin 2))).toInt := by
  unfold ScatterDims.start
  rw [dif_pos (show (0 : Fin 2) ∈ ([0, 1] : List (Fin 2)) from by decide)]
  congr 2
  funext b; refine Fin.ext ?_
  match b with
  | ⟨0, _⟩ => rfl
  | ⟨1, _⟩ => rfl

private theorem point_start1 : (pointDims wf).start j idx 1 = (idx (ix2 (j 0) (1 : Fin 2))).toInt := by
  unfold ScatterDims.start
  rw [dif_pos (show (1 : Fin 2) ∈ ([0, 1] : List (Fin 2)) from by decide)]
  congr 2
  funext b; refine Fin.ext ?_
  match b with
  | ⟨0, _⟩ => rfl
  | ⟨1, _⟩ => rfl

private theorem point_window (a : Fin 2) : (pointDims wf).window j a = 0 := by
  match a with
  | ⟨0, _⟩ => rfl
  | ⟨1, _⟩ => rfl

/-- Where update `j` of the point scatter lands: at `(k, c)` exactly when its edge's index pair is `(k, c)`. -/
private theorem point_lands (k : Fin K) (c : Fin C) :
    (pointDims wf).resultIdx? j idx = some (ix2 k c)
      ↔ (idx (ix2 (j 0) (0 : Fin 2))).toInt = (k.val : ℤ) ∧ (idx (ix2 (j 0) (1 : Fin 2))).toInt = (c.val : ℤ) := by
  rw [resultIdx?_eq_some_iff, Fin.forall_fin_two, point_start0, point_start1, point_window, point_window]
  show (_ + ((0 : ℕ) : ℤ) = ((k.val : ℕ) : ℤ)) ∧ (_ + ((0 : ℕ) : ℤ) = ((c.val : ℕ) : ℤ)) ↔ _
  constructor
  · rintro ⟨h0, h1⟩
    exact ⟨by omega, by omega⟩
  · rintro ⟨h0, h1⟩
    exact ⟨by omega, by omega⟩

end Point

/-- The point scatter-add at element `(k, c)`: the operand's element plus the updates over the edges whose
    index pair, read signed, is `(k, c)`. -/
theorem scatterAdd_point_read {K C n : Nat} {φ : FTy} (d : ScatterDims ⟨2, ![K, C]⟩ ⟨2, ![n, 2]⟩ ⟨1, ![n]⟩)
    (h1 : d.updateWindowDims = []) (h2 : d.insertedWindowDims = [0, 1]) (h3 : d.scatterDimsToOperandDims = [0, 1])
    (h4 : d.indexVectorDim = 1)
    (x : A2 K C) (idx : IVec ⟨2, ![n, 2]⟩ 32) (upd : A1 n) (k : Fin K) (c : Fin C) :
    Host.scatterAdd (F := Ideal) (φ := φ) d x idx upd (ix2 k c)
      = x (ix2 k c) + ∑ e ∈ Finset.univ.filter (fun e : Fin n =>
          (idx (ix2 e (0 : Fin 2))).toInt = (k.val : ℤ) ∧ (idx (ix2 e (1 : Fin 2))).toInt = (c.val : ℤ)),
          upd (ix1 e) := by
  obtain ⟨uw, iw, sd, iv, wf⟩ := d
  dsimp only at h1 h2 h3 h4
  subst h1 h2 h3 h4
  show Ideal.hostScatterAdd (pointDims wf) x idx upd (ix2 k c) = _
  unfold Ideal.hostScatterAdd
  congr 1
  refine Finset.sum_nbij' (fun j => (j 0 : Fin n)) (fun e => ix1 e) ?_ ?_ ?_ ?_ ?_
  · intro j hj
    exact Finset.mem_filter.mpr ⟨Finset.mem_univ _, (point_lands wf idx j k c).mp (Finset.mem_filter.mp hj).2⟩
  · intro e he
    exact Finset.mem_filter.mpr
      ⟨Finset.mem_univ _, (point_lands wf idx (ix1 e) k c).mpr (Finset.mem_filter.mp he).2⟩
  · intro j _; exact (eq_ix1 j).symm
  · intro e _; rfl
  · intro j _; exact congrArg upd (eq_ix1 j)

/-! ## The index normalisation and the two-column index array, at an index -/

/-- The normalisation of an index array read at an index: where the word is negative the extent is added. -/
theorem norm_read {s : Shape} (h0 : (⟨0, ![]⟩ : Shape).BroadcastsInDim s (![] : Fin 0 → Fin s.rank))
    (idx : IVec s 32) (N : Nat) (i : s.Idx) :
    select (cmpi .slt idx (broadcastInDim s ![] h0 (constantI ⟨0, ![]⟩ 32 0#32)))
      (addi idx (broadcastInDim s ![] h0 (constantI ⟨0, ![]⟩ 32 (BitVec.ofNat 32 N)))) idx i
      = Cert.Spec.norm N (idx i) := by
  show (if BitVec.ofBool ((idx i).slt 0#32) = 1 then idx i + BitVec.ofNat 32 N else idx i) = _
  unfold Cert.Spec.norm
  cases (idx i).slt 0#32 <;> simp

/-- Two one-column arrays laid side by side: column 0 is the first. -/
theorem concat_cols_read0 {n : Nat} (a b : IVec ⟨2, ![n, 1]⟩ 32)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, a⟩, ⟨⟨2, ![n, 1]⟩, b⟩] h (ix2 e (0 : Fin 2)) = a (ix2 e (0 : Fin 1)) := by
  refine concatenate_pair_apply_left (1 : Fin 2) a b h (ix2 e (0 : Fin 2)) rfl (ix2 e (0 : Fin 1)) ?_
  intro b'
  match b' with
  | ⟨0, _⟩ => rfl
  | ⟨1, _⟩ => rfl

/-- Two one-column arrays laid side by side: column 1 is the second. -/
theorem concat_cols_read1 {n : Nat} (a b : IVec ⟨2, ![n, 1]⟩ 32)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, a⟩, ⟨⟨2, ![n, 1]⟩, b⟩] h (ix2 e (1 : Fin 2)) = b (ix2 e (0 : Fin 1)) := by
  refine concatenate_pair_apply_right (1 : Fin 2) a b h (ix2 e (1 : Fin 2)) rfl rfl (ix2 e (0 : Fin 1)) ?_ rfl
  intro b' hb'
  match b', hb' with
  | ⟨0, _⟩, _ => rfl
  | ⟨1, _⟩, hb' => exact absurd rfl hb'

end Cert.Lib.ScatterRead

end
-- ==== Proof.KAdj.lean ====
/-
  The dense weight matrix the host builds by one scatter-add over the edge list, read at one entry, at the exact
  (extended-real) instance.
  The host lays the target words and the source words of the 110000 edges side by side as a two-column index array
  (column 0 the target, column 1 the source), each word first normalised the way array indexing does it: a negative
  word has the padded extent 10240 added. One scatter-add then drops edge e's weight on the entry of a zero
  10240 x 10240 matrix named by row e of that array, and the result is narrowed to a shorter float format, which
  changes no value on the extended reals. So entry (i, k) is zero plus the sum of the weights of exactly those
  edges whose normalised target word is i and whose normalised source word is k; an edge whose pair falls outside
  the matrix matches no entry and is dropped. The three edge arrays are written before the scatter and by no later
  host operation, so they are read where the first kernel call finds them.
-/
import proofs.«403808_j84464826843561_3_alg».proof.Proof.Gen.KernelIdeal.Frame
import proofs.«403808_j84464826843561_3_alg».proof.Proof.Spec
import proofs.«403808_j84464826843561_3_alg».proof.Proof.LibScatterRead
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.HostVal

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The source-index words, the target-index words and the edge weights as the host operations leave them. -/
abbrev rowK (c : Dev nD) : IVec S110000 32 := W5 m ρ c (Proc.devRef .tc main_v3)
abbrev colK (c : Dev nD) : IVec S110000 32 := W5 m ρ c (Proc.devRef .tc main_v6)
abbrev nrmK (c : Dev nD) : Vec Ideal S110000 .f32 := W5 m ρ c (Proc.devRef .tc main_v29)

/-- A vector laid out as a one-column array reads, at row `e`, the vector at `e`. -/
private theorem bcast_col_read {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  refine broadcastInDim_apply ![0] h v (ix2 e (0 : Fin 1)) (ix1 e) ?_
  intro a
  match a with
  | ⟨0, _⟩ =>
    show e.val = if n = 1 then 0 else e.val
    split
    · next h1 => have := e.isLt; omega
    · rfl

/-- The scatter-add of the weights `u` into a zero matrix at the (target, source) pairs normalised against the padded
    extent, narrowed to the shorter float format (no change of value on the extended reals), read at entry `(i, k)`. -/
private theorem dense_read (x6 x3 : IVec S110000 32) (u : Vec Ideal S110000 .f32) (i k : Fin 10240) :
    (truncf .bf16 (Host.scatterAdd (F := Ideal) scatter_S10240x10240_S110000x2_S110000_n_01_01_1
        (broadcastInDim S10240x10240 ![] bcast_S_S10240x10240 (constant (F := Ideal) S_ .f32 0x00000000#32))
        (concatenate S110000x2 1
          [⟨S110000x1, broadcastInDim S110000x1 ![0] bcast_S110000_S110000x1_0
              (select (cmpi .slt x6 (broadcastInDim S110000 ![] bcast_S_S110000 (constantI S_ 32 0#32)))
                (addi x6 (broadcastInDim S110000 ![] bcast_S_S110000 (constantI S_ 32 10240#32))) x6)⟩,
           ⟨S110000x1, broadcastInDim S110000x1 ![0] bcast_S110000_S110000x1_0
              (select (cmpi .slt x3 (broadcastInDim S110000 ![] bcast_S_S110000 (constantI S_ 32 0#32)))
                (addi x3 (broadcastInDim S110000 ![] bcast_S_S110000 (constantI S_ 32 10240#32))) x3)⟩]
          concatenates_S110000x1_S110000x1_S110000x2_d1)
        u) bitsLt_bf16_f32 : Vec Ideal S10240x10240 .bf16) (ix2 i k)
      = 0 + ∑ e ∈ Finset.univ.filter (fun e : Fin 110000 =>
          (Cert.Spec.norm 10240 (x6 (ix1 e))).toInt = (i.val : ℤ) ∧ (Cert.Spec.norm 10240 (x3 (ix1 e))).toInt = (k.val : ℤ)),
          u (ix1 e) := by
  rw [truncf_apply]
  rw [Cert.Lib.ScatterRead.scatterAdd_point_read _ rfl rfl rfl rfl]
  refine congrArg₂ (· + ·) ?_ ?_
  · exact Ideal.ofBits_zero_f32
  · refine Finset.sum_congr (Finset.filter_congr fun e _ => ?_) fun _ _ => rfl
    rw [Cert.Lib.ScatterRead.concat_cols_read0, Cert.Lib.ScatterRead.concat_cols_read1, bcast_col_read, bcast_col_read,
      Cert.Lib.ScatterRead.norm_read, Cert.Lib.ScatterRead.norm_read]

set_option maxHeartbeats 2000000 in
/-- What the third stretch of host operations leaves in the matrix's buffer, over any contents `V2` it starts from:
    the narrowed scatter-add of that stretch's own weights into the zero matrix at the two normalised index columns. -/
private theorem v45_term (V2 : Valuation τ sig (Elt Ideal)) :
    StableHlo.after hostOps0_2 V2 (Proc.devRef .tc main_v45)
      = (truncf .bf16 (Host.scatterAdd (F := Ideal) scatter_S10240x10240_S110000x2_S110000_n_01_01_1
        (broadcastInDim S10240x10240 ![] bcast_S_S10240x10240 (constant (F := Ideal) S_ .f32 0x00000000#32))
        (concatenate S110000x2 1
          [⟨S110000x1, broadcastInDim S110000x1 ![0] bcast_S110000_S110000x1_0
              (select (cmpi .slt (V2 (Proc.devRef .tc main_v6) : IVec S110000 32) (broadcastInDim S110000 ![] bcast_S_S110000 (constantI S_ 32 0#32)))
                (addi (V2 (Proc.devRef .tc main_v6) : IVec S110000 32) (broadcastInDim S110000 ![] bcast_S_S110000 (constantI S_ 32 10240#32))) (V2 (Proc.devRef .tc main_v6) : IVec S110000 32))⟩,
           ⟨S110000x1, broadcastInDim S110000x1 ![0] bcast_S110000_S110000x1_0
              (select (cmpi .slt (V2 (Proc.devRef .tc main_v3) : IVec S110000 32) (broadcastInDim S110000 ![] bcast_S_S110000 (constantI S_ 32 0#32)))
                (addi (V2 (Proc.devRef .tc main_v3) : IVec S110000 32) (broadcastInDim S110000 ![] bcast_S_S110000 (constantI S_ 32 10240#32))) (V2 (Proc.devRef .tc main_v3) : IVec S110000 32))⟩]
          concatenates_S110000x1_S110000x1_S110000x2_d1)
        (StableHlo.after hostOps0_2 V2 (Proc.devRef .tc main_v29) : Vec Ideal S110000 .f32)) bitsLt_bf16_f32 : Vec Ideal S10240x10240 .bf16) := by
  dsimp only [hostOps0_2]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))

/-- A stretch of host operations leaves a buffer it does not write as it found it. -/
local macro "stretch_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

private theorem v45_kept (c : Dev nD) :
    W5 m ρ c (Proc.devRef .tc main_v45) = StableHlo.after hostOps0_2 (W2 m ρ c) (Proc.devRef .tc main_v45) :=
  calc W5 m ρ c (Proc.devRef .tc main_v45)
    _ = W4 m ρ c (Proc.devRef .tc main_v45) := by stretch_keeps hostOps0_4
    _ = W3 m ρ c (Proc.devRef .tc main_v45) := by stretch_keeps hostOps0_3

private theorem nrmK_eq (c : Dev nD) :
    nrmK m ρ c = (StableHlo.after hostOps0_2 (W2 m ρ c) (Proc.devRef .tc main_v29) : Vec Ideal S110000 .f32) :=
  calc W5 m ρ c (Proc.devRef .tc main_v29)
    _ = W4 m ρ c (Proc.devRef .tc main_v29) := by stretch_keeps hostOps0_4
    _ = W3 m ρ c (Proc.devRef .tc main_v29) := by stretch_keeps hostOps0_3

private theorem rowK_eq (c : Dev nD) :
    rowK m ρ c = (W2 m ρ c (Proc.devRef .tc main_v3) : IVec S110000 32) :=
  calc W5 m ρ c (Proc.devRef .tc main_v3)
    _ = W4 m ρ c (Proc.devRef .tc main_v3) := by stretch_keeps hostOps0_4
    _ = W3 m ρ c (Proc.devRef .tc main_v3) := by stretch_keeps hostOps0_3
    _ = W2 m ρ c (Proc.devRef .tc main_v3) := by stretch_keeps hostOps0_2

private theorem colK_eq (c : Dev nD) :
    colK m ρ c = (W2 m ρ c (Proc.devRef .tc main_v6) : IVec S110000 32) :=
  calc W5 m ρ c (Proc.devRef .tc main_v6)
    _ = W4 m ρ c (Proc.devRef .tc main_v6) := by stretch_keeps hostOps0_4
    _ = W3 m ρ c (Proc.devRef .tc main_v6) := by stretch_keeps hostOps0_3
    _ = W2 m ρ c (Proc.devRef .tc main_v6) := by stretch_keeps hostOps0_2

/-- The dense weight matrix at (i, k): zero plus the weights of the edges whose (target, source) words, normalised
    against the padded extent, are (i, k). -/
theorem W5_v45_apply (c : Dev nD) (i k : Fin 10240) :
    W5 m ρ c (Proc.devRef .tc main_v45) (ix2 i k)
      = 0 + ∑ e ∈ Finset.univ.filter (fun e : Fin 110000 =>
          (Cert.Spec.norm 10240 (colK m ρ c (ix1 e))).toInt = (i.val : ℤ) ∧ (Cert.Spec.norm 10240 (rowK m ρ c (ix1 e))).toInt = (k.val : ℤ)),
          nrmK m ρ c (ix1 e) := by
  rw [v45_kept, nrmK_eq, rowK_eq, colK_eq]
  generalize W2 m ρ c = V2
  rw [v45_term]
  exact dense_read _ _ _ i k

end Cert.KernelIdeal.HostVal

end
-- ==== Proof.Bridge.lean ====
/-
  Both programs build the extended edge list and its weights from the input edge list by the same host operations:
  the source words, the target words and the weights the kernel's host code leaves are the reference's stages of the
  same input.
-/
import proofs.«403808_j84464826843561_3_alg».proof.Proof.Gen.KernelIdeal.Frame
import proofs.«403808_j84464826843561_3_alg».proof.Proof.RefRead
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The source words are written by the first stretch of host operations and by none after it. -/
theorem W5_v3 (c : Dev nD) :
    W5 m ρ c (Proc.devRef .tc main_v3) = StableHlo.after hostOps0 (W0 m ρ c) (Proc.devRef .tc main_v3) :=
  calc W5 m ρ c (Proc.devRef .tc main_v3)
    _ = W4 m ρ c (Proc.devRef .tc main_v3) := StableHlo.after_of_forall_not_mem (b := Proc.devRef .tc main_v3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 4000000 in
/-- The kernel's source words are the reference's. -/
theorem rowK_eq (c : Dev nD) :
    W5 m ρ c (Proc.devRef .tc main_v3)
      = Cert.ReferenceIdeal.ReadP.val_main_v3 (F := Ideal) (m ((c.tc : Thread nD τ).loc main_arg1)) := by
  rw [W5_v3]
  after_results
  rfl

/-- The target words are written by the first stretch of host operations and by none after it. -/
theorem W5_v6 (c : Dev nD) :
    W5 m ρ c (Proc.devRef .tc main_v6) = StableHlo.after hostOps0 (W0 m ρ c) (Proc.devRef .tc main_v6) :=
  calc W5 m ρ c (Proc.devRef .tc main_v6)
    _ = W4 m ρ c (Proc.devRef .tc main_v6) := StableHlo.after_of_forall_not_mem (b := Proc.devRef .tc main_v6) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := StableHlo.after_of_forall_not_mem (b := Proc.devRef .tc main_v6) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 4000000 in
/-- The kernel's target words are the reference's. -/
theorem colK_eq (c : Dev nD) :
    W5 m ρ c (Proc.devRef .tc main_v6)
      = Cert.ReferenceIdeal.ReadP.val_main_v6 (F := Ideal) (m ((c.tc : Thread nD τ).loc main_arg1)) := by
  rw [W5_v6]
  after_results
  rfl

/-- The weights are written by the third stretch of host operations and by none after it. -/
theorem W5_v29 (c : Dev nD) :
    W5 m ρ c (Proc.devRef .tc main_v29)
      = StableHlo.after hostOps0_2 (StableHlo.after hostOps0_1 (StableHlo.after hostOps0 (W0 m ρ c))) (Proc.devRef .tc main_v29) :=
  calc W5 m ρ c (Proc.devRef .tc main_v29)
    _ = W4 m ρ c (Proc.devRef .tc main_v29) := StableHlo.after_of_forall_not_mem (b := Proc.devRef .tc main_v29) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := StableHlo.after_of_forall_not_mem (b := Proc.devRef .tc main_v29) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxRecDepth 100000 in
set_option maxHeartbeats 40000000 in
/-- The kernel's edge weights are the reference's. -/
theorem nrmK_eq (c : Dev nD) :
    W5 m ρ c (Proc.devRef .tc main_v29)
      = Cert.ReferenceIdeal.ReadP.val_main_v29 (F := Ideal) (m ((c.tc : Thread nD τ).loc main_arg1)) := by
  rw [W5_v29]
  after_results
  simp only [StableHlo.TRef.ofBuf, StableHlo.TRef.toBuf, cast_eq]
  rfl

end Cert.Bridge

end
-- ==== Proof.KValue.lean ====
/-
  The kernel program's result at node `i`, feature `j` is the matrix form of the layer: the second product's output
  row `i` is the dense weight matrix's row `i` times the first product's output, plus the bias; the first product's
  output is the zero-padded features times the weights; and the dense weight matrix's entry `(i, k)` collects the
  weights of the edges from `k` into `i`, because every source and target word is a node number, hence non-negative,
  so that the normalisation of negative index words leaves it alone.
-/
import proofs.«403808_j84464826843561_3_alg».proof.Proof.KReg0
import proofs.«403808_j84464826843561_3_alg».proof.Proof.KReg1
import proofs.«403808_j84464826843561_3_alg».proof.Proof.KPlumb
import proofs.«403808_j84464826843561_3_alg».proof.Proof.KAdj
import proofs.«403808_j84464826843561_3_alg».proof.Proof.Bridge
import proofs.«403808_j84464826843561_3_alg».proof.Proof.Spec

set_option maxRecDepth 16384

noncomputable section

open scoped BigOperators

namespace Cert.KernelIdeal.KValue

open Cert.KernelIdeal Cert.KernelIdeal.Gen Cert.KernelIdeal.HostVal Cert.KernelIdeal.RegVal
open Idealize.ShloMosaic Idealize.ShloMosaic.TcCoe Idealize.ShloMosaic.ValueIdx Idealize.SL.Sem

/-- A non-negative index word is its own normalisation. -/
theorem norm_of_nonneg (N : Nat) (w : BitVec 32) (h : 0 ≤ w.toInt) : Cert.Spec.norm N w = w := by
  unfold Cert.Spec.norm
  have hs : w.slt 0#32 = false := by
    rw [BitVec.slt_eq_decide]
    have h0 : (0#32 : BitVec 32).toInt = 0 := by decide
    rw [h0]
    exact decide_eq_false (by omega)
  rw [hs]
  simp

variable (m : (ℓ : Loc nD τ sig) → Buf (Elt Ideal) ℓ) (ρ : Dev nD → PrngReg)

/-- The dense weight matrix the second product reads is `Spec.adj` of the node-valued source and target words. -/
theorem adj_entry (c : Dev nD) (src dst : Fin 110000 → Fin 10000)
    (hs : ∀ e : Fin 110000, (Cert.ReferenceIdeal.ReadP.val_main_v3 (F := Ideal) (m ((c.tc : Thread nD τ).loc main_arg1)) (ix1 e)).toInt = ((src e).val : ℤ))
    (hd : ∀ e : Fin 110000, (Cert.ReferenceIdeal.ReadP.val_main_v6 (F := Ideal) (m ((c.tc : Thread nD τ).loc main_arg1)) (ix1 e)).toInt = ((dst e).val : ℤ))
    (i k : Fin 10240) :
    aArr (V7 m ρ) c (ix2 i k)
      = Cert.Spec.adj src dst (fun e => Cert.ReferenceIdeal.ReadP.val_main_v29 (F := Ideal) (m ((c.tc : Thread nD τ).loc main_arg1)) (ix1 e)) i k := by
  show V7 m ρ c main_v45 (ix2 i k) = _
  rw [V7_v45, W5_v45_apply]
  unfold Cert.Spec.adj
  have hrow : ∀ e : Fin 110000, rowK m ρ c (ix1 e) = Cert.ReferenceIdeal.ReadP.val_main_v3 (F := Ideal) (m ((c.tc : Thread nD τ).loc main_arg1)) (ix1 e) :=
    fun e => congrFun (Cert.Bridge.rowK_eq m ρ c) (ix1 e)
  have hcol : ∀ e : Fin 110000, colK m ρ c (ix1 e) = Cert.ReferenceIdeal.ReadP.val_main_v6 (F := Ideal) (m ((c.tc : Thread nD τ).loc main_arg1)) (ix1 e) :=
    fun e => congrFun (Cert.Bridge.colK_eq m ρ c) (ix1 e)
  have hnrm : ∀ e : Fin 110000, nrmK m ρ c (ix1 e) = Cert.ReferenceIdeal.ReadP.val_main_v29 (F := Ideal) (m ((c.tc : Thread nD τ).loc main_arg1)) (ix1 e) :=
    fun e => congrFun (Cert.Bridge.nrmK_eq m ρ c) (ix1 e)
  refine congrArg (0 + ·) ?_
  refine Finset.sum_congr (Finset.filter_congr fun e _ => ?_) (fun e _ => hnrm e)
  have hc0 : 0 ≤ (Cert.ReferenceIdeal.ReadP.val_main_v6 (F := Ideal) (m ((c.tc : Thread nD τ).loc main_arg1)) (ix1 e)).toInt := by
    rw [hd e]; exact Int.natCast_nonneg _
  have hr0 : 0 ≤ (Cert.ReferenceIdeal.ReadP.val_main_v3 (F := Ideal) (m ((c.tc : Thread nD τ).loc main_arg1)) (ix1 e)).toInt := by
    rw [hs e]; exact Int.natCast_nonneg _
  rw [hcol e, hrow e, norm_of_nonneg 10240 _ hc0, norm_of_nonneg 10240 _ hr0, hd e, hs e]
  constructor
  · rintro ⟨h1, h2⟩; exact ⟨by exact_mod_cast h1, by exact_mod_cast h2⟩
  · rintro ⟨h1, h2⟩; exact ⟨by exact_mod_cast h1, by exact_mod_cast h2⟩

/-- The first product's output, as the second product reads it, is the zero-padded features times the weights. -/
theorem lin_entry (c : Dev nD) (k : Fin 10240) (j : Fin 768) :
    hArr (V7 m ρ) c (ix2 k j)
      = Cert.Spec.linPad (Cert.Spec.padRows (m ((c.tc : Thread nD τ).loc main_arg0))) (m ((c.tc : Thread nD τ).loc main_arg2)) k j := by
  have h1 : hArr (V7 m ρ) c (ix2 k j)
      = ∑ d : Fin 768, xpArr (V5 m ρ) c (ix2 k d) * wArr (V5 m ρ) c (ix2 d j) :=
    (congrFun (V7_v48 m ρ c) (ix2 k j)).trans (reg0_array (V5 m ρ) c k j)
  refine h1.trans ?_
  unfold Cert.Spec.linPad
  exact Finset.sum_congr rfl fun d _ =>
    congrArg₂ (fun a b : EReal => a * b) (V5_v46_apply m ρ c k d) (V5_v47_apply m ρ c d j)

/-- The kernel program's result at node `i`, feature `j` is the matrix form of the layer. -/
theorem kernel_result (c : Dev nD) (src dst : Fin 110000 → Fin 10000)
    (hs : ∀ e : Fin 110000, (Cert.ReferenceIdeal.ReadP.val_main_v3 (F := Ideal) (m ((c.tc : Thread nD τ).loc main_arg1)) (ix1 e)).toInt = ((src e).val : ℤ))
    (hd : ∀ e : Fin 110000, (Cert.ReferenceIdeal.ReadP.val_main_v6 (F := Ideal) (m ((c.tc : Thread nD τ).loc main_arg1)) (ix1 e)).toInt = ((dst e).val : ℤ))
    (i : Fin 10000) (j : Fin 768) :
    W9 m ρ c (Proc.devRef .tc main_v51) (ix2 i j)
      = Cert.Spec.matOut (m ((c.tc : Thread nD τ).loc main_arg0)) (m ((c.tc : Thread nD τ).loc main_arg2)) (m ((c.tc : Thread nD τ).loc main_arg3))
          src dst (fun e => Cert.ReferenceIdeal.ReadP.val_main_v29 (F := Ideal) (m ((c.tc : Thread nD τ).loc main_arg1)) (ix1 e)) i j := by
  have h1 : W9 m ρ c (Proc.devRef .tc main_v51) (ix2 i j)
      = (∑ k : Fin 10240, aArr (V7 m ρ) c (ix2 (i.castLE (by decide) : Fin 10240) k) * hArr (V7 m ρ) c (ix2 k j))
          + bArr (V7 m ρ) c (ix2 (0 : Fin 1) j) :=
    (W9_v51_apply m ρ c i j).trans (reg1_array (V7 m ρ) c (i.castLE (by decide)) j)
  have hb : bArr (V7 m ρ) c (ix2 (0 : Fin 1) j) = m ((c.tc : Thread nD τ).loc main_arg3) (ix1 j) := V7_v49_apply m ρ c j
  have hsum : (∑ k : Fin 10240, aArr (V7 m ρ) c (ix2 (i.castLE (by decide) : Fin 10240) k) * hArr (V7 m ρ) c (ix2 k j))
      = ∑ k : Fin 10240, Cert.Spec.adj src dst
          (fun e => Cert.ReferenceIdeal.ReadP.val_main_v29 (F := Ideal) (m ((c.tc : Thread nD τ).loc main_arg1)) (ix1 e)) (i.castLE (by decide)) k
          * Cert.Spec.linPad (Cert.Spec.padRows (m ((c.tc : Thread nD τ).loc main_arg0))) (m ((c.tc : Thread nD τ).loc main_arg2)) k j :=
    Finset.sum_congr rfl fun k _ =>
      congrArg₂ (fun a b : EReal => a * b) (adj_entry m ρ c src dst hs hd (i.castLE (by decide)) k) (lin_entry m ρ c k j)
  rw [h1, hsum, hb]
  rfl

end Cert.KernelIdeal.KValue

end
-- ==== Proof.LibRowOps.lean ====
/-
  Two host operations along the FIRST axis of a matrix, read at one element, at the exact (extended-real) instance,
  generic in the extents:

  * the ROW scatter-add: updates [n, C], one row index per edge; update (e, c) lands at (idx e, c), so element (r, c)
    collects the updates (e, c) over the edges e whose index is r; an index outside the operand drops its update;
  * the ROW take: a gather of whole rows; result (e, c) is the operand at (idx e clamped into the axis, c).
-/
import Idealize.ShloMosaic.PureOps.Ideal
import Idealize.ShloMosaic.PureOps.Contract
import Idealize.ShloMosaic.Lib.ValueIdx
import Idealize.ShloMosaic.Lib.Pipeline.Value
import proofs.«403808_j84464826843561_3_alg».proof.Proof.Spec
import proofs.«403808_j84464826843561_3_alg».proof.Proof.LibScatterRead

noncomputable section

open scoped BigOperators

namespace Cert.Lib.RowOps

open Idealize.ShloMosaic Idealize.ShloMosaic.ValueIdx Cert.Spec

/-! ## The row scatter -/

section Row
variable {R C n : Nat}

/-- The row scatter's dimension numbers, as a record. -/
private abbrev rowDims (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

variable (wf : ScatterDims.WF ⟨2, ![R, C]⟩ ⟨2, ![n, 1]⟩ ⟨2, ![n, C]⟩ [1] [0] [0] 1)
  (idx : IVec ⟨2, ![n, 1]⟩ 32) (j : (⟨2, ![n, C]⟩ : Shape).Idx)

/-- On the row axis the window starts at the edge's index word, read signed. -/
private theorem row_start0 : (rowDims wf).start j idx 0 = (idx (ix2 (j 0) (0 : Fin 1))).toInt := by
  unfold ScatterDims.start
  rw [dif_pos (show (0 : Fin 2) ∈ (rowDims wf).scatterDimsToOperandDims from List.mem_singleton.mpr rfl)]
  congr 2
  funext b; refine Fin.ext ?_
  match b with
  | ⟨0, _⟩ => rfl
  | ⟨1, _⟩ => rfl

/-- On the column axis, which no index names, the window starts at 0. -/
private theorem row_start1 : (rowDims wf).start j idx 1 = 0 := by
  unfold ScatterDims.start
  rw [dif_neg (show ¬ (1 : Fin 2) ∈ ([0] : List (Fin 2)) from by decide)]

/-- The row axis is inserted: its window coordinate is 0. -/
private theorem row_window0 : (rowDims wf).window j 0 = 0 := by
  rfl

/-- The column axis carries the update's column. -/
private theorem row_window1 : (rowDims wf).window j 1 = (j 1).val := by
  rfl

/-- Where update `j` of the row scatter lands: at `(r, c)` exactly when its edge's index is `r` and its column is `c`. -/
private theorem row_lands (r : Fin R) (c : Fin C) :
    (rowDims wf).resultIdx? j idx = some (ix2 r c)
      ↔ (idx (ix2 (j 0) (0 : Fin 1))).toInt = (r.val : ℤ) ∧ (j 1 : Fin C) = c := by
  rw [ScatterRead.resultIdx?_eq_some_iff, Fin.forall_fin_two, row_start0, row_start1, row_window0, row_window1]
  show (_ + ((0 : ℕ) : ℤ) = ((r.val : ℕ) : ℤ)) ∧ (0 + (((j 1 : Fin C).val : ℕ) : ℤ) = ((c.val : ℕ) : ℤ)) ↔ _
  constructor
  · rintro ⟨h0, h1⟩
    exact ⟨by omega, Fin.ext (by omega)⟩
  · rintro ⟨h0, h1⟩
    exact ⟨by omega, by rw [h1]; omega⟩

end Row

/-- The row scatter-add at element `(r, c)`: the operand's element plus the updates `(e, c)` over the edges `e` whose
    index word, read signed, is `r`. -/
theorem scatterAdd_row_read {R C n : Nat} {φ : FTy} (d : ScatterDims ⟨2, ![R, C]⟩ ⟨2, ![n, 1]⟩ ⟨2, ![n, C]⟩)
    (h1 : d.updateWindowDims = [1]) (h2 : d.insertedWindowDims = [0]) (h3 : d.scatterDimsToOperandDims = [0])
    (h4 : d.indexVectorDim = 1)
    (x : A2 R C) (idx : IVec ⟨2, ![n, 1]⟩ 32) (upd : A2 n C) (r : Fin R) (c : Fin C) :
    Host.scatterAdd (F := Ideal) (φ := φ) d x idx upd (ix2 r c)
      = x (ix2 r c) + ∑ e ∈ Finset.univ.filter (fun e : Fin n => (idx (ix2 e (0 : Fin 1))).toInt = (r.val : ℤ)),
          upd (ix2 e c) := by
  obtain ⟨uw, iw, sd, iv, wf⟩ := d
  dsimp only at h1 h2 h3 h4
  subst h1 h2 h3 h4
  show Ideal.hostScatterAdd (rowDims wf) x idx upd (ix2 r c) = _
  unfold Ideal.hostScatterAdd
  congr 1
  refine Finset.sum_nbij' (fun j => (j 0 : Fin n)) (fun e => ix2 e c) ?_ ?_ ?_ ?_ ?_
  · intro j hj
    exact Finset.mem_filter.mpr ⟨Finset.mem_univ _, ((row_lands wf idx j r c).mp (Finset.mem_filter.mp hj).2).1⟩
  · intro e he
    exact Finset.mem_filter.mpr
      ⟨Finset.mem_univ _, (row_lands wf idx (ix2 e c) r c).mpr ⟨(Finset.mem_filter.mp he).2, rfl⟩⟩
  · intro j hj
    have hc := ((row_lands wf idx j r c).mp (Finset.mem_filter.mp hj).2).2
    rw [← hc]; exact (eq_ix2 j).symm
  · intro e _; rfl
  · intro j hj
    have hc := ((row_lands wf idx j r c).mp (Finset.mem_filter.mp hj).2).2
    rw [← hc]; exact congrArg upd (eq_ix2 j)

/-! ## The row take -/

section Take
variable {R C n : Nat}

/-- The row take's dimension numbers, as a record. -/
private abbrev takeRowDims (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![R, C]⟩ ⟨2, ![n, 1]⟩ ⟨2, ![n, C]⟩ [1] [0] [] [0] [] 1 ![1, C])
  (idx : IVec ⟨2, ![n, 1]⟩ 32) (j : (⟨2, ![n, C]⟩ : Shape).Idx)

/-- On the row axis the slice starts at the index word, read signed and clamped into `[0, R − 1]`. -/
private theorem take_start0 :
    (takeRowDims wf).start j idx 0 = min (idx (ix2 (j 0) (0 : Fin 1))).toInt.toNat (R - 1) := by
  unfold GatherDims.start
  rw [dif_pos (show (0 : Fin 2) ∈ (takeRowDims wf).startIndexMap from List.mem_singleton.mpr rfl)]
  have hsi : (takeRowDims wf).siIdx j ⟨List.idxOf (0 : Fin 2) (takeRowDims wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no start index names, the slice starts at 0. -/
private theorem take_start1 : (takeRowDims wf).start j idx 1 = 0 := by
  unfold GatherDims.start
  rw [dif_neg (show ¬ (1 : Fin 2) ∈ ([0] : List (Fin 2)) from by decide)]

/-- The row axis is collapsed: its offset coordinate is 0. -/
private theorem take_off0 : (takeRowDims wf).offCoord j 0 = 0 :=
  GatherDims.offCoord_eq_zero _ _ _ (fun h => ((GatherDims.mem_sKept _ _).mp h).1 (List.mem_singleton.mpr rfl))

/-- The column axis is the one offset axis: its offset coordinate is the result's column. -/
private theorem take_off1 : (takeRowDims wf).offCoord j 1 = (j 1).val := by
  rfl

end Take

/-- The row take at `(e, c)`: the operand at row `idx e`, read signed and clamped into `[0, R − 1]`, column `c`. -/
theorem gather_row_read {α : Type} {R C n : Nat} (d : GatherDims ⟨2, ![R, C]⟩ ⟨2, ![n, 1]⟩ ⟨2, ![n, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![R, C]⟩ : Shape).Idx → α) (idx : IVec ⟨2, ![n, 1]⟩ 32) (e : Fin n) (c : Fin C) (hR : 0 < R) :
    Host.gather d x idx (ix2 e c)
      = x (ix2 (⟨min (idx (ix2 e (0 : Fin 1))).toInt.toNat (R - 1), by omega⟩ : Fin R) c) := by
  obtain ⟨od, cs, ob, sb, sim, iv, ss, wf⟩ := d
  dsimp only at h1 h2 h3 h4 h5 h6 h7
  subst h1 h2 h3 h4 h5 h6 h7
  show Host.gather (takeRowDims wf) x idx (ix2 e c) = _
  unfold Host.gather
  congr 1
  funext a
  refine Fin.ext ?_
  show (takeRowDims wf).start (ix2 e c) idx a + (takeRowDims wf).batchCoord (ix2 e c) a
    + (takeRowDims wf).offCoord (ix2 e c) a = _
  rw [GatherDims.batchCoord_eq_zero _ _ _ List.not_mem_nil, Nat.add_zero]
  match a with
  | ⟨0, _⟩ =>
    show (takeRowDims wf).start (ix2 e c) idx 0 + (takeRowDims wf).offCoord (ix2 e c) 0
      = min (idx (ix2 e (0 : Fin 1))).toInt.toNat (R - 1)
    rw [take_start0, take_off0, Nat.add_zero]
    rfl
  | ⟨1, _⟩ =>
    show (takeRowDims wf).start (ix2 e c) idx 1 + (takeRowDims wf).offCoord (ix2 e c) 1 = c.val
    rw [take_start1, take_off1, Nat.zero_add]
    rfl

end Cert.Lib.RowOps

end
-- ==== Proof.RefValue.lean ====
/-
  The reference program's result, read at one element, is the edge form of the layer.
  The last stage adds two arrays: the bias repeated along every row, whose entry (i, j) is b j, and a row scatter-add into
  the zero array, whose entry (i, j) is zero plus the sum of the messages (e, j) over the edges e whose target word reads
  as i. The message of edge e at feature j is a gathered row times a repeated weight: row (source word of e, taken from
  the end of the axis if negative, then clamped into the axis) of the product x · W, at column j, times the weight of e.
  A source word that reads as a node number is neither negative nor clamped, so the row is row src e, and the product
  at (k, j) is the sum over the 768 shared coordinates of x (k, d) · W (d, j): together, the edge form.
-/
import proofs.«403808_j84464826843561_3_alg».proof.Proof.RefRead
import proofs.«403808_j84464826843561_3_alg».proof.Proof.Spec
import proofs.«403808_j84464826843561_3_alg».proof.Proof.LibScatterRead
import proofs.«403808_j84464826843561_3_alg».proof.Proof.LibRowOps
import Idealize.ShloMosaic.Lib.ValueIdx
import Idealize.ShloMosaic.Lib.Pipeline.Value
import Idealize.ShloMosaic.PureOps.Ideal.Laws

noncomputable section

open scoped BigOperators

namespace Cert.ReferenceIdeal.RefVal

open Cert.ReferenceIdeal Cert.ReferenceIdeal.ReadP
open Idealize.ShloMosaic Idealize.ShloMosaic.TcCoe Idealize.ShloMosaic.ValueIdx Idealize.SL.Sem

/-- The bias, repeated along every row, read at row `i`, column `j`: its entry `j`. -/
theorem ref_bias (x3 : (⟨S768, .f32⟩ : BufTy).Contents (Elt Ideal)) (i : Fin 10000) (j : Fin 768) :
    val_main_v45 (F := Ideal) x3 (ix2 i j) = x3 (ix1 j) := by
  rw [val_main_v45_apply, val_main_v44_apply]
  refine congrArg x3 (funext fun a => ?_)
  match a with
  | ⟨0, _⟩ => rfl

/-- The array the messages are added into starts as zero. -/
theorem ref_zero (i : Fin 10000) (j : Fin 768) : val_main_v41 (F := Ideal) (ix2 i j) = (0 : EReal) := by
  rw [val_main_v41_apply, val_main_cst_8_apply]
  exact Ideal.ofBits_zero_f32

/-- The target index column at edge `e` is the edge's target word. -/
theorem ref_dst_word (x1 : (⟨S2x100000, .i32⟩ : BufTy).Contents (Elt Ideal)) (e : Fin 110000) :
    val_main_v42 (F := Ideal) x1 (ix2 e (0 : Fin 1)) = val_main_v6 (F := Ideal) x1 (ix1 e) := by
  rw [val_main_v42_apply]
  refine congrArg (val_main_v6 (F := Ideal) x1) (funext fun a => ?_)
  match a with
  | ⟨0, _⟩ => rfl

/-- The edge weight, repeated along the features, at edge `e`, feature `j`: the weight of `e`. -/
theorem ref_weight (x1 : (⟨S2x100000, .i32⟩ : BufTy).Contents (Elt Ideal)) (e : Fin 110000) (j : Fin 768) :
    val_main_v39 (F := Ideal) x1 (ix2 e j) = val_main_v29 (F := Ideal) x1 (ix1 e) := by
  rw [val_main_v39_apply, val_main_v38_apply]
  refine congrArg (val_main_v29 (F := Ideal) x1) (funext fun a => ?_)
  match a with
  | ⟨0, _⟩ => rfl

/-- A word that reads as a natural number is left alone by the index normalisation. -/
theorem ref_norm_of_nonneg (w : BitVec 32) (n : Nat) (h : w.toInt = (n : ℤ)) : Cert.Spec.norm 10000 w = w := by
  unfold Cert.Spec.norm
  have hlt : w.slt 0#32 = false := by
    rw [BitVec.slt_eq_decide]
    simp only [BitVec.toInt_zero, decide_eq_false_iff_not, not_lt]
    omega
  rw [hlt]; rfl

/-- The source index column at edge `e` is the edge's source word, when that word is a node number. -/
theorem ref_src_word (x1 : (⟨S2x100000, .i32⟩ : BufTy).Contents (Elt Ideal)) (e : Fin 110000) (n : Nat)
    (h : (val_main_v3 (F := Ideal) x1 (ix1 e)).toInt = (n : ℤ)) :
    val_main_v36 (F := Ideal) x1 (ix2 e (0 : Fin 1)) = val_main_v3 (F := Ideal) x1 (ix1 e) := by
  rw [val_main_v36_apply]
  have hi : idx_main_v36 (ix2 e (0 : Fin 1)) = ix1 e := funext fun a => by
    match a with
    | ⟨0, _⟩ => rfl
  rw [hi]
  have hn : val_main_v35 (F := Ideal) x1 (ix1 e) = Cert.Spec.norm 10000 (val_main_v3 (F := Ideal) x1 (ix1 e)) :=
    Cert.Lib.ScatterRead.norm_read Cert.ReferenceIdeal.Gen.bcast_S_S110000 (val_main_v3 (F := Ideal) x1) 10000 (ix1 e)
  rw [hn, ref_norm_of_nonneg _ n h]

/-- The product `x · W` at row `k`, column `j`. -/
theorem ref_lin (x0 : (⟨S10000x768, .f32⟩ : BufTy).Contents (Elt Ideal)) (x2 : (⟨S768x768, .f32⟩ : BufTy).Contents (Elt Ideal))
    (k : Fin 10000) (j : Fin 768) :
    val_main_v30 (F := Ideal) x0 x2 (ix2 k j) = Cert.Spec.lin x0 x2 k j := by
  rw [val_main_v30_apply]
  unfold Cert.Spec.lin
  refine Finset.sum_congr rfl fun d _ => ?_
  have el : lidx_main_v30 (ix2 k j) d = ix2 k d := funext fun a => by
    match a with
    | ⟨0, _⟩ => rfl
    | ⟨1, _⟩ => rfl
  have er : ridx_main_v30 (ix2 k j) d = ix2 d j := funext fun a => by
    match a with
    | ⟨0, _⟩ => rfl
    | ⟨1, _⟩ => rfl
  rw [el, er]

/-- The message of edge `e` at feature `j`: row `src e` of `x · W`, times the edge's weight. -/
theorem ref_message (x0 : (⟨S10000x768, .f32⟩ : BufTy).Contents (Elt Ideal)) (x1 : (⟨S2x100000, .i32⟩ : BufTy).Contents (Elt Ideal))
    (x2 : (⟨S768x768, .f32⟩ : BufTy).Contents (Elt Ideal)) (e : Fin 110000) (s : Fin 10000)
    (h : (val_main_v3 (F := Ideal) x1 (ix1 e)).toInt = ((s.val : ℕ) : ℤ)) (j : Fin 768) :
    val_main_v40 (F := Ideal) x0 x1 x2 (ix2 e j) = Cert.Spec.lin x0 x2 s j * val_main_v29 (F := Ideal) x1 (ix1 e) := by
  rw [val_main_v40_apply, ref_weight]
  show val_main_v37 (F := Ideal) x0 x1 x2 (ix2 e j) * _ = _
  refine congrArg (· * val_main_v29 (F := Ideal) x1 (ix1 e)) ?_
  unfold val_main_v37
  rw [Cert.Lib.RowOps.gather_row_read gather_S10000x768_S110000x1_S110000x768_1_0_n_n_0_1_1768 rfl rfl rfl rfl rfl rfl rfl
    (val_main_v30 (F := Ideal) x0 x2) (val_main_v36 (F := Ideal) x1) e j (by decide)]
  rw [← ref_lin]
  refine congrArg (fun r : Fin 10000 => val_main_v30 (F := Ideal) x0 x2 (ix2 r j)) (Fin.ext ?_)
  show min (val_main_v36 (F := Ideal) x1 (ix2 e (0 : Fin 1))).toInt.toNat (10000 - 1) = s.val
  rw [ref_src_word x1 e s.val h, h]
  have := s.isLt
  omega

/-- The row scatter-add at node `i`, feature `j`: zero plus the messages of the edges into `i`. -/
theorem ref_scatter (x0 : (⟨S10000x768, .f32⟩ : BufTy).Contents (Elt Ideal)) (x1 : (⟨S2x100000, .i32⟩ : BufTy).Contents (Elt Ideal))
    (x2 : (⟨S768x768, .f32⟩ : BufTy).Contents (Elt Ideal)) (i : Fin 10000) (j : Fin 768) :
    val_main_v43 (F := Ideal) x0 x1 x2 (ix2 i j)
      = val_main_v41 (F := Ideal) (ix2 i j) + ∑ e ∈ Finset.univ.filter (fun e : Fin 110000 => (val_main_v42 (F := Ideal) x1 (ix2 e (0 : Fin 1))).toInt = (i.val : ℤ)),
          val_main_v40 (F := Ideal) x0 x1 x2 (ix2 e j) := by
  unfold val_main_v43
  exact Cert.Lib.RowOps.scatterAdd_row_read (φ := .f32) scatter_S10000x768_S110000x1_S110000x768_1_0_0_1 rfl rfl rfl rfl
    (val_main_v41 (F := Ideal)) (val_main_v42 (F := Ideal) x1) (val_main_v40 (F := Ideal) x0 x1 x2) i j

/-- The reference's result at node `i`, feature `j` is the edge form of the layer, for any node-valued reading
    `src`, `dst` of its source and target index words. -/
theorem ref_result (x0 : (⟨S10000x768, .f32⟩ : BufTy).Contents (Elt Ideal)) (x1 : (⟨S2x100000, .i32⟩ : BufTy).Contents (Elt Ideal))
    (x2 : (⟨S768x768, .f32⟩ : BufTy).Contents (Elt Ideal)) (x3 : (⟨S768, .f32⟩ : BufTy).Contents (Elt Ideal))
    (src dst : Fin 110000 → Fin 10000)
    (hs : ∀ e : Fin 110000, (val_main_v3 (F := Ideal) x1 (ix1 e)).toInt = ((src e).val : ℤ))
    (hd : ∀ e : Fin 110000, (val_main_v6 (F := Ideal) x1 (ix1 e)).toInt = ((dst e).val : ℤ))
    (i : Fin 10000) (j : Fin 768) :
    val_main_v46 (F := Ideal) x0 x1 x2 x3 (ix2 i j)
      = Cert.Spec.edgeOut x0 x2 x3 src dst (fun e => val_main_v29 (F := Ideal) x1 (ix1 e)) i j := by
  have hfilter : Finset.univ.filter (fun e : Fin 110000 => (val_main_v42 (F := Ideal) x1 (ix2 e (0 : Fin 1))).toInt = (i.val : ℤ))
      = Finset.univ.filter (fun e : Fin 110000 => dst e = i) := by
    refine Finset.filter_congr fun e _ => ?_
    rw [ref_dst_word, hd e]
    constructor
    · intro h; exact Fin.ext (by exact_mod_cast h)
    · intro h; rw [h]
  rw [val_main_v46_apply]
  show val_main_v43 (F := Ideal) x0 x1 x2 (ix2 i j) + val_main_v45 (F := Ideal) x3 (ix2 i j) = _
  rw [ref_bias, ref_scatter, ref_zero, hfilter]
  unfold Cert.Spec.edgeOut
  exact congrArg (fun s : EReal => (0 + s) + x3 (ix1 j)) (Finset.sum_congr rfl fun e _ => ref_message x0 x1 x2 e (src e) (hs e) j)

end Cert.ReferenceIdeal.RefVal

end
-- ==== Proof.Chain.lean ====
/-
  Facts about the edge list both programs build from the input: where its words lie, and that its weights are real.
  The extended edge list is the given list of 100000 edges followed by one self-loop per node: its source (and target)
  vector is a row of the input followed by the node numbers 0, …, 9999, so a position below 100000 reads an input word
  and a position p at or past it reads the node number p − 100000; all are node numbers once the input's words are.
  An edge's weight is the product of two entries of the vector that holds 1/√d where the degree entry d is positive
  and 0 elsewhere. Read in the extended reals, 1/√d is infinite only where d is zero or negative (−∞ included), which the guard excludes,
  and it is 0 at d = +∞: so every entry is a real number whatever the degree is, and a product of two reals is real.
-/
import proofs.«403808_j84464826843561_3_alg».proof.Proof.RefRead
import proofs.«403808_j84464826843561_3_alg».proof.Proof.Spec
import Idealize.ShloMosaic.Lib.ValueIdx
import Idealize.ShloMosaic.Lib.StableHlo.Predicate
import Idealize.ShloMosaic.Lib.Pipeline.Value
import Idealize.ShloMosaic.PureOps.Ideal.Laws

noncomputable section

open scoped BigOperators

namespace Cert.ReferenceIdeal.Chain

open Cert.ReferenceIdeal Cert.ReferenceIdeal.ReadP
open Idealize.ShloMosaic Idealize.ShloMosaic.TcCoe Idealize.ShloMosaic.ValueIdx Idealize.SL.Sem

/-- A vector of 100000 words, each a node number, followed by the node numbers 0, 1, …, 9999 in order: every one of
    the 110000 words of the joined vector is a node number. -/
private theorem joined_words (y : (⟨S100000, .i32⟩ : BufTy).Contents (Elt Ideal))
    (hy : ∀ i : S100000.Idx, 0 ≤ (y i).toInt ∧ (y i).toInt < 10000)
    (h : Shape.Concatenates [S100000, S10000] S110000 0) :
    ∃ f : Fin 110000 → Fin 10000, ∀ e : Fin 110000,
      (concatenate S110000 0 [⟨S100000, y⟩, ⟨S10000, val_main_v0 (F := Ideal)⟩] h (ix1 e)).toInt = ((f e).val : ℤ) := by
  -- each word of the joined vector lies in the range, whichever piece it comes from
  have key : ∀ e : Fin 110000, 0 ≤ (concatenate S110000 0 [⟨S100000, y⟩, ⟨S10000, val_main_v0 (F := Ideal)⟩] h (ix1 e)).toInt
      ∧ (concatenate S110000 0 [⟨S100000, y⟩, ⟨S10000, val_main_v0 (F := Ideal)⟩] h (ix1 e)).toInt < 10000 := by
    intro e
    by_cases he : e.val < 100000
    · -- a position in the first piece reads the given vector there
      have hl : concatenate S110000 0 [⟨S100000, y⟩, ⟨S10000, val_main_v0 (F := Ideal)⟩] h (ix1 e)
          = y (ix1 (⟨e.val, he⟩ : Fin 100000)) :=
        concatenate_pair_apply_left (0 : Fin 1) y (val_main_v0 (F := Ideal)) h (ix1 e) rfl
          (ix1 (⟨e.val, he⟩ : Fin 100000)) (fun b => match b with | ⟨0, _⟩ => rfl)
      rw [hl]
      exact hy _
    · -- a position in the second piece reads the node number "position less 100000"
      have hlt : e.val - 100000 < 10000 := by have := e.isLt; omega
      have hrd : concatenate S110000 0 [⟨S100000, y⟩, ⟨S10000, val_main_v0 (F := Ideal)⟩] h (ix1 e)
          = val_main_v0 (F := Ideal) (ix1 (⟨e.val - 100000, hlt⟩ : Fin 10000)) :=
        concatenate_pair_apply_right (0 : Fin 1) y (val_main_v0 (F := Ideal)) h (ix1 e) rfl rfl
          (ix1 (⟨e.val - 100000, hlt⟩ : Fin 10000))
          (fun b hb => absurd (Subsingleton.elim (α := Fin 1) _ _) hb)
          (by show e.val - 100000 + 100000 = e.val; omega)
      rw [hrd, val_main_v0_apply]
      show 0 ≤ (BitVec.ofNat 32 (e.val - 100000)).toInt ∧ (BitVec.ofNat 32 (e.val - 100000)).toInt < 10000
      rw [StableHlo.Predicate.toInt_ofNat_small _ (by omega)]
      omega
  refine ⟨fun e => ⟨(concatenate S110000 0 [⟨S100000, y⟩, ⟨S10000, val_main_v0 (F := Ideal)⟩] h (ix1 e)).toInt.toNat, ?_⟩, ?_⟩
  · have := key e; omega
  · intro e
    have := key e
    show _ = ((Int.toNat _ : ℕ) : ℤ)
    omega

/-- Where every endpoint word of the edge list lies in `[0, 10000)`, so does every source and target word of the
    extended edge list (the self-loops' endpoints are node numbers). -/
theorem src_dst_of_range (x1 : (⟨S2x100000, .i32⟩ : BufTy).Contents (Elt Ideal))
    (hr : ∀ p : S2x100000.Idx, 0 ≤ (x1 p).toInt ∧ (x1 p).toInt < 10000) :
    ∃ src dst : Fin 110000 → Fin 10000,
      (∀ e : Fin 110000, (val_main_v3 (F := Ideal) x1 (ix1 e)).toInt = ((src e).val : ℤ))
      ∧ (∀ e : Fin 110000, (val_main_v6 (F := Ideal) x1 (ix1 e)).toInt = ((dst e).val : ℤ)) := by
  -- both rows of the edge list, flattened, are words of the edge list
  have h2 : ∀ i : S100000.Idx, 0 ≤ (val_main_v2 (F := Ideal) x1 i).toInt ∧ (val_main_v2 (F := Ideal) x1 i).toInt < 10000 := by
    intro i; rw [val_main_v2_apply, val_main_v1_apply]; exact hr _
  have h5 : ∀ i : S100000.Idx, 0 ≤ (val_main_v5 (F := Ideal) x1 i).toInt ∧ (val_main_v5 (F := Ideal) x1 i).toInt < 10000 := by
    intro i; rw [val_main_v5_apply, val_main_v4_apply]; exact hr _
  obtain ⟨src, hs⟩ := joined_words (val_main_v2 (F := Ideal) x1) h2 _
  obtain ⟨dst, hd⟩ := joined_words (val_main_v5 (F := Ideal) x1) h5 _
  exact ⟨src, dst, hs, hd⟩

/-- Zero where the value is not positive, the inverse square root where it is: a real number either way. The inverse
    square root of a positive real is the real `1/√r`, and that of `+∞` is `0`; `0` and the negative values, whose
    inverse square roots are infinite, are the ones the guard replaces by zero. -/
private theorem guarded_rsqrt_real (d : EReal) :
    ∃ r : ℝ, Scalar.select (Ideal.cmp .ogt d 0) (Ideal.rsqrt d) (0 : EReal) = (r : EReal) := by
  induction d using EReal.rec with
  | bot => exact ⟨0, by simp [Scalar.select, Ideal.cmp]⟩
  | top => exact ⟨0, by simp [Scalar.select, Ideal.cmp]⟩
  | coe r =>
    by_cases h : (0 : ℝ) < r
    · refine ⟨(Real.sqrt r)⁻¹, ?_⟩
      have h1 : ¬ r < 0 := not_lt.2 h.le
      have h2 : r ≠ 0 := ne_of_gt h
      simp [Scalar.select, Ideal.cmp, h, h1, h2]
    · exact ⟨0, by simp [Scalar.select, Ideal.cmp, h]⟩

/-- Every entry of the inverse-square-root degree vector is a real number. -/
private theorem inv_sqrt_deg_real (x1 : (⟨S2x100000, .i32⟩ : BufTy).Contents (Elt Ideal)) (k : S10000.Idx) :
    ∃ r : ℝ, val_main_v14 (F := Ideal) x1 k = (r : EReal) := by
  have e : val_main_v14 (F := Ideal) x1 k
      = Scalar.select (Ideal.cmp .ogt (val_main_v10 (F := Ideal) x1 k) 0) (Ideal.rsqrt (val_main_v10 (F := Ideal) x1 k)) (0 : EReal) := by
    rw [val_main_v14_apply, val_main_v12_apply, val_main_v13_apply, val_main_call0_v1_apply, val_main_call0_v0_apply,
      val_main_cst_2_apply, val_main_v11_apply, val_main_cst_1_apply, Ideal.ofBits_def, Ideal.ofBits_zero_f32,
      Ideal.cmpf_def, Ideal.hostUnary_rsqrt_def]
  rw [e]
  exact guarded_rsqrt_real _

/-- Every edge weight is a real number: it is a product of two entries of the inverse-square-root degree vector, and
    each such entry is either a guarded inverse square root of a positive value or zero. -/
theorem nrm_real (x1 : (⟨S2x100000, .i32⟩ : BufTy).Contents (Elt Ideal)) (e : Fin 110000) :
    ∃ r : ℝ, val_main_v29 (F := Ideal) x1 (ix1 e) = (r : EReal) := by
  -- each factor is the degree vector read at the position its (clamped) endpoint word names
  have h21 : val_main_v21 (F := Ideal) x1 (ix1 e) = val_main_v14 (F := Ideal) x1
      (gather_S10000_S110000x1_S110000_n_0_n_n_0_1_1.operandIdx (ix1 e) (val_main_v20 (F := Ideal) x1)) := rfl
  have h28 : val_main_v28 (F := Ideal) x1 (ix1 e) = val_main_v14 (F := Ideal) x1
      (gather_S10000_S110000x1_S110000_n_0_n_n_0_1_1.operandIdx (ix1 e) (val_main_v27 (F := Ideal) x1)) := rfl
  obtain ⟨a, ha⟩ := inv_sqrt_deg_real x1 (gather_S10000_S110000x1_S110000_n_0_n_n_0_1_1.operandIdx (ix1 e) (val_main_v20 (F := Ideal) x1))
  obtain ⟨b, hb⟩ := inv_sqrt_deg_real x1 (gather_S10000_S110000x1_S110000_n_0_n_n_0_1_1.operandIdx (ix1 e) (val_main_v27 (F := Ideal) x1))
  refine ⟨a * b, ?_⟩
  rw [val_main_v29_apply, Ideal.mulf_def, h21, h28, ha, hb, EReal.coe_mul]

end Cert.ReferenceIdeal.Chain

end
-- ==== Proof.PreDecode.lean ====
/-
  The precondition decoded: the printed predicate is all ones exactly where every feature and weight entry is a real
  number and every edge endpoint is a node index.
  The predicate is a conjunction of five bits, each the conjunction over every entry of one array of a single comparison,
  and a conjunction of bits is one only when every bit in it is one, so each comparison holds at every entry. On the
  features and on the weights the comparison is |x| < +∞ among the extended reals, where |x| = max x (-x) is +∞ at both
  infinities, so x is neither of them and is a real number (the like conjunct on the bias is not used). On the edge list
  the two comparisons are 0 ≤ w and w < 10000 of the words read as signed integers, which are the two bounds stated.
-/
import proofs.«403808_j84464826843561_3_alg».proof.Pre_finite_inputs
import Idealize.ShloMosaic.PureOps.Ideal
import Idealize.ShloMosaic.Lib.ReduceAll
import Idealize.ShloMosaic.Lib.StableHlo.Predicate

noncomputable section

namespace Cert.PreDecode

open Idealize.ShloMosaic Cert.Pre_finite_inputs

variable [Cert.Pre_finite_inputs.Facts]

/-- The scalar shape has one index: the empty tuple of coordinates. -/
private instance : Subsingleton S_.Idx := ⟨fun a b => funext fun d => d.elim0⟩

/-- The pattern with an all-ones exponent, a zero significand and a clear sign bit denotes +∞. -/
private theorem inf_bits : Ideal.ofBits .f32 0x7F800000#32 = (⊤ : EReal) := by
  simp [Ideal.ofBits, Ideal.ieee]

/-- An extended real whose absolute value max x (-x) lies strictly below +∞ is a real number: at x = +∞ and at
    x = -∞ that maximum is +∞ itself. -/
private theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- Where the precondition holds, the features and the weights are real-valued and every edge endpoint lies in
    `[0, 10000)`. -/
theorem decode (x0 : FVec Ideal S10000x768 .f32) (x1 : IVec S2x100000 32) (x2 : FVec Ideal S768x768 .f32)
    (x3 : FVec Ideal S768 .f32) (h : Cert.Pre_finite_inputs.fn (F := Ideal) x0 x1 x2 x3 = (fun _ => 1#1)) :
    (∀ p, ∃ r : ℝ, x0 p = (r : EReal)) ∧ (∀ p, ∃ r : ℝ, x2 p = (r : EReal))
      ∧ (∀ p, 0 ≤ (x1 p).toInt ∧ (x1 p).toInt < 10000) := by
  -- the predicate at its one index: a conjunction of five bits, each one
  have h0 := congrFun h (fun d => d.elim0)
  dsimp only [fn, fn_part1] at h0
  simp only [andi, IntOp.andi_eq_one] at h0
  obtain ⟨⟨⟨⟨a0, a2⟩, _⟩, age⟩, alt⟩ := h0
  refine ⟨fun p => ?_, fun p => ?_, fun p => ⟨?_, ?_⟩⟩
  · -- features: |x0 p| < +∞
    have e := Host.reduce_andi_all _ _ _ _ _ a0 p
    simp only [cmpf, Host.absf, broadcastInDim, constant] at e
    exact real_of_abs_lt_inf _ e
  · -- weights: |x2 p| < +∞
    have e := Host.reduce_andi_all _ _ _ _ _ a2 p
    simp only [cmpf, Host.absf, broadcastInDim, constant] at e
    exact real_of_abs_lt_inf _ e
  · -- edge words: 0 ≤ w, signed
    have e := Host.reduce_andi_all _ _ _ _ _ age p
    simp only [cmpi, broadcastInDim, constantI] at e
    have e' := IntOp.cmpi_sge.1 e
    rwa [show (0#32 : BitVec 32).toInt = 0 from by decide] at e'
  · -- edge words: w < 10000, signed
    have e := Host.reduce_andi_all _ _ _ _ _ alt p
    simp only [cmpi, broadcastInDim, constantI] at e
    have e' := IntOp.cmpi_slt.1 e
    rwa [show (10000#32 : BitVec 32).toInt = 10000 from by decide] at e'

end Cert.PreDecode

end
-- ==== Proof.lean ====
/- The proof of `Cert.Claim`: a graph-convolution layer computed two ways.

   The reference sums, for every node `i`, the transformed features `(x · W)` of the sources of the edges into `i`, each
   scaled by its edge weight, and adds the bias (a gather, a scaling and a scatter-add over the extended edge list).
   The kernel collects the edge weights into a dense 10240 × 10240 matrix by one scalar scatter-add and computes
   `A · (xpad · W) + b` as two tiled matrix products, then keeps the first 10000 rows.

   Where every feature and weight entry is a real number and every edge endpoint is a node index (the precondition), the
   two results agree entry by entry on the extended reals: the kernel's result is the matrix form (Proof/KValue.lean,
   over the two products' output arrays, the host operations around them and the dense weight matrix read at an entry),
   the reference's the edge form (Proof/RefValue.lean), both of the same source words, target words and weights
   (Proof/Bridge.lean), and the two forms are one number (Proof/Spec.lean: a sum over the edges into a node splits by the
   edge's source, and a real factor distributes over a real sum). The three programs run, leaving their arguments as
   launched (the generated frames; the reference's frame is its run with the result dropped); the idealization rewrote
   no operation, so there is nothing to preserve. -/
import proofs.«403808_j84464826843561_3_alg».proof.Defs
import proofs.«403808_j84464826843561_3_alg».proof.Proof.Gen.Kernel
import proofs.«403808_j84464826843561_3_alg».proof.Proof.Gen.Kernel.Skeleton
import proofs.«403808_j84464826843561_3_alg».proof.Proof.Gen.Kernel.Launch
import proofs.«403808_j84464826843561_3_alg».proof.Proof.Gen.Kernel.Points
import proofs.«403808_j84464826843561_3_alg».proof.Proof.Gen.Kernel.Frame
import proofs.«403808_j84464826843561_3_alg».proof.Proof.Gen.KernelIdeal
import proofs.«403808_j84464826843561_3_alg».proof.Proof.Gen.KernelIdeal.Skeleton
import proofs.«403808_j84464826843561_3_alg».proof.Proof.Gen.KernelIdeal.Launch
import proofs.«403808_j84464826843561_3_alg».proof.Proof.Gen.KernelIdeal.Points
import proofs.«403808_j84464826843561_3_alg».proof.Proof.Gen.KernelIdeal.Frame
import proofs.«403808_j84464826843561_3_alg».proof.Proof.Gen.ReferenceIdeal
import proofs.«403808_j84464826843561_3_alg».proof.Proof.Gen.Pre_finite_inputs
import proofs.«403808_j84464826843561_3_alg».proof.Proof.KRun
import proofs.«403808_j84464826843561_3_alg».proof.Proof.KValue
import proofs.«403808_j84464826843561_3_alg».proof.Proof.RefRead
import proofs.«403808_j84464826843561_3_alg».proof.Proof.RefValue
import proofs.«403808_j84464826843561_3_alg».proof.Proof.Chain
import proofs.«403808_j84464826843561_3_alg».proof.Proof.PreDecode
import proofs.«403808_j84464826843561_3_alg».proof.Proof.Spec
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs end with equal results: the kernel's result array is taken as the common value, and
    the reference's result is shown equal to it entry by entry — edge form against matrix form. -/
theorem algebraic : Cert.algebraic_KernelIdeal_ReferenceIdeal := by
  intro m ρ m' ρ' hpre hagree
  refine ⟨fun c => Cert.KernelIdeal.Gen.W9 m ρ c (Proc.devRef .tc Cert.KernelIdeal.main_v51),
    Cert.KernelIdeal.GenP.run_out m ρ, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v46_eq, (hagree c).1, (hagree c).2.1, (hagree c).2.2.1, (hagree c).2.2.2]
  obtain ⟨hx, hW, hr⟩ := Cert.PreDecode.decode _ _ _ _ (hpre c)
  obtain ⟨src, dst, hs, hd⟩ := Cert.ReferenceIdeal.Chain.src_dst_of_range _ hr
  funext p
  obtain ⟨i, j, rfl⟩ : ∃ (i : Fin 10000) (j : Fin 768), p = ix2 i j := ⟨p 0, p 1, eq_ix2 p⟩
  rw [Cert.ReferenceIdeal.RefVal.ref_result _ _ _ _ src dst hs hd i j]
  refine Eq.trans ?_ (Cert.KernelIdeal.KValue.kernel_result m ρ c src dst hs hd i j).symm
  exact (Cert.Spec.matOut_eq_edgeOut _ _ _ src dst _ hx hW
    (fun e => Cert.ReferenceIdeal.Chain.nrm_real _ e) i j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
